-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S11008 .f32) (main_arg6 : FVec F S4096 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S11008 .f32 := Host.absf main_arg5
  let main_cst_8 : FVec F S_ .f32 := constant S_ .f32 0x7F800000#32
  let main_v25 : FVec F S11008 .f32 := broadcastInDim S11008 ![] bcast_S_S11008 main_cst_8
  let main_v26 : IVec S11008 1 := cmpf .olt main_v24 main_v25
  let main_c_9 : IVec S_ 1 := constantI S_ 1 1#1
  let main_v27 : IVec S_ 1 := (fun x v => Host.reduce IntOp.andi x v reducesTo_S11008_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S11008x4096 .f32) (main_arg2 : FVec F S11008x4096 .f32) (main_arg3 : FVec F S4096x11008 .f32) (main_arg4 : FVec F S11008 .f32) (main_arg5 : FVec F S11008 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S8192x4096 : Shape := ⟨2, ![8192, 4096]⟩
abbrev S1x11008 : Shape := ⟨2, ![1, 11008]⟩
abbrev S1x4096 : Shape := ⟨2, ![1, 4096]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S2048x256 : Shape := ⟨2, ![2048, 256]⟩
abbrev S1x1024 : Shape := ⟨2, ![1, 1024]⟩
abbrev S2048x1024 : Shape := ⟨2, ![2048, 1024]⟩

abbrev nBuf : Space → Nat
  | .hbm => 18
  | .vmem => 21
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S8192x4096, .f32⟩
  | .hbm, ⟨8, _⟩ => ⟨S8192x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S1x11008, .f32⟩
  | .hbm, ⟨13, _⟩ => ⟨S1x11008, .f32⟩
  | .hbm, ⟨14, _⟩ => ⟨S1x4096, .f32⟩
  | .hbm, ⟨15, _⟩ => ⟨S8192x11008, .bf16⟩
  | .hbm, ⟨16, _⟩ => ⟨S8192x4096, .f32⟩
  | .hbm, ⟨17, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S2048x256, .bf16⟩
  | .local _ .vmem, ⟨13, _⟩ => ⟨S2048x256, .bf16⟩
  | .local _ .vmem, ⟨14, _⟩ => ⟨S1024x256, .bf16⟩
  | .local _ .vmem, ⟨15, _⟩ => ⟨S1024x256, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 4, 43], ![false, false, false]⟩

def k1_cond2 (i : grid1.Coords) : BitVec 1 :=
  let arg2 : BitVec 32 := BitVec.ofNat 32 (i 2).val
  let c42_i32 : BitVec 32 := 42#32
  let v13 : BitVec 1 := Scalar.cmpi .eq arg2 c42_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x4096_S256x4096_S1024x256_1_1_0_0_n_n_wf : DotDims.WF S1024x4096 S256x4096 S1024x256 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .bf16 = 32 ∨ (Rect.block (s := S8192x11008) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x11008.size a
  hwx1_0 : ∀ i : grid1.Coords, EltTy.bits .bf16 = 32 ∨ (Rect.block (s := S8192x11008) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x11008.size a
  hwx1_1 : ∀ i : grid1.Coords, EltTy.bits .bf16 = 32 ∨ (Rect.block (s := S4096x11008) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S4x2048x11008 : Shape := ⟨3, ![4, 2048, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | .hbm, ⟨11, _⟩ => ⟨S4x2048x11008, .f32⟩
  | .hbm, ⟨12, _⟩ => ⟨S1x1x11008, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S_, .f32⟩
  | .hbm, ⟨18, _⟩ => ⟨S4x2048x11008, .f32⟩
  | .hbm, ⟨19, _⟩ => ⟨S4x2048x11008, .f32⟩
  | .hbm, ⟨20, _⟩ => ⟨S_, .f32⟩
  | .hbm, ⟨21, _⟩ => ⟨S4x2048x11008, .f32⟩
  | .hbm, ⟨22, _⟩ => ⟨S4x2048x11008, .f32⟩
  | .hbm, ⟨23, _⟩ => ⟨S4x2048x11008, .f32⟩
  | .hbm, ⟨24, _⟩ => ⟨S4x2048x11008, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S_S4x2048x11008 : S_.BroadcastsInDim S4x2048x11008 (![] : Fin 0 → Fin S4x2048x11008.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.K.Base.lean ====
/-
  What the two kernel regions share, at any float instance and at a PARAMETER `V`: the contents of the core's
  buffers when a region is entered.

  Region 0 (the fused gate / up / SiLU kernel, grid 8 × 43) reads five input windows and writes one output block per
  point.  Region 1 (the down projection, grid 4 × 4 × 43) reads three input windows, keeps a 2048 × 1024 accumulator in a
  scratch buffer across the 43 points of the contracted axis, and stores its output block only at the last of them.

  Here: each window's block at a point read off its array (`iblk0`, `iblk1`); that an input window's staging buffer
  holds that block whenever the body runs, fetched at that point or kept from an earlier one (`beforeK_W_of`); region 1's
  two branch conditions over the grid in closed form (the first point of a run of 43 resets the accumulator, the last
  one stores the output), and where its output window is idle and where it is written back.
-/
import proofs.«164616_j63883343560961_1_alg».proof.Proof.Gen.Kernel.Launch
import proofs.«164616_j63883343560961_1_alg».proof.Proof.Gen.Kernel.Skeleton
import proofs.«164616_j63883343560961_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Region 1: the body's two conditions over the grid -/

/-- "This is the first point of its run along the contracted axis" (coordinate 2 is zero): the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last point of its run" (coordinate 2 is 42): the output block is stored. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Region 1: where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is stored the window is live. -/
theorem liveAt1_3 : ∀ t : Fin cfg1.N, cond1_1 (grid1.coords t) → cfg1.idle 3 (grid1.coords t) = false := by decide +kernel

/-! ## Region 1: the memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: the scratch buffer the body keeps between points. -/
abbrev scM1 : Memref sig .tc .vmem S2048x1024 .f32 := Memref.whole cc1_scratch0
abbrev VS1 : View sig .tc .vmem S2048x1024 .f32 := scM1.view

end Cert.Kernel.Frm

end
-- ==== Proof.K.R0.lean ====
/-
  Region 0, the fused gate / up / SiLU kernel, at any float instance and at the entry contents `V`.

  At every grid point the body loads its five input blocks whole (a 1024-row block of the activations, 256-row blocks of
  the two weight matrices, 256-lane blocks of the two scales), computes ONE value — the block of the hidden activation —
  and stores it whole into the output window's staging buffer.  So what the output buffer holds after the body is that
  one store read back (`out0_5`), a function of the five input blocks alone; the proof data name it, and the body
  obligation is the body's triple at the blocks the input windows hold.
-/
import proofs.«164616_j63883343560961_1_alg».proof.Proof.K.Base

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: each buffer whole -/

abbrev r0_x : Rect S1024x4096 := Rect.unit (s := S1024x4096) ![0, 0] S1024x4096.size inb_S1024x4096_S1024x4096_0_0
abbrev r0_w : Rect S256x4096 := Rect.unit (s := S256x4096) ![0, 0] S256x4096.size inb_S256x4096_S256x4096_0_0
abbrev r0_a : Rect S1x256 := Rect.unit (s := S1x256) ![0, 0] S1x256.size inb_S1x256_S1x256_0_0
abbrev r0_h : Rect S1024x256 := Rect.unit (s := S1024x256) ![0, 0] S1024x256.size inb_S1024x256_S1024x256_0_0

/-! ## What the body leaves in the output window's buffer -/

/-- The output buffer after the body, from the input blocks: its one store read back. -/
def out0_5 (x0 : Vec F S1024x4096 .bf16) (x1 x2 : Vec F S256x4096 .bf16) (x3 x4 : Vec F S1x256 .f32) : Vec F S1024x256 .bf16 :=
  View.canon [⟨r0_h, k0_pay1 (View.ld x0 r0_x) (View.ld x1 r0_w) (View.ld x2 r0_w) (View.ld x3 r0_a) (View.ld x4 r0_a)⟩]

/-- The store covers the buffer. -/
theorem cover0_5 (p0 : Vec F S1024x256 .bf16) (y : S1024x256.Idx) :
    ∃ pc ∈ ([⟨r0_h, p0⟩] : List (View.Piece (Elt F) S1024x256 .bf16)), y ∈ pc.1.set :=
  View.cover_of_tiled [⟨r0_h, p0⟩] S1024x256.size (by rfl) y

/-! ## The body's triple -/

set_option maxHeartbeats 4000000 in
/-- On whole staging memrefs, the inputs' at contents `xW` and the output's at anything, the body runs to the
    continuation holding the inputs' as they were and the output's at `out0_5` of them. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole)
    (x0 : Vec F S1024x4096 .bf16) (x1 x2 : Vec F S256x4096 .bf16) (x3 x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- Region 0's proof data on core `c`: the arrays as the region finds them; after the body at point `t` each input's
    buffer at its block and the output's at `out0_5` of the input blocks; the scoped rest and the generator register ride
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1RunA.lean ====
/-
  The down-projection body run whole in ONE of its three control cases — the FIRST point of a run along the contracted axis: the accumulator is reset to zero, then the block product is added — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.K.Base

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Frm

end
-- ==== Proof.K.R1RunB.lean ====
/-
  The down-projection body run whole in ONE of its three control cases — a MIDDLE point: the block product is added to the accumulator the point before left — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.K.R1RunA

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Frm

end
-- ==== Proof.K.R1RunC.lean ====
/-
  The down-projection body run whole in ONE of its three control cases — the LAST point: the block product is added, and the accumulator times the per-channel scale is stored into the output buffer — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.K.R1RunB

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Frm

end
-- ==== Proof.K.R1.lean ====
/-
  Region 1, the down projection, at any float instance and at the entry contents `V`.

  The grid is 4 × 4 × 43; the last axis runs over the 43 blocks of the contracted (intermediate) dimension, and the body
  keeps a 2048 × 1024 accumulator in a scratch buffer across those 43 points.  At the first point of a run it resets the
  accumulator and adds the block product; at the middle points it adds the block product to what the point before left;
  at the last point it adds, then stores accumulator × scale into the output window's buffer, which the pipeline writes
  back there and only there (elsewhere the output window is idle).

  `outsAt1` says, by recursion on the point, what the output buffer and the accumulator hold after each point — the case
  the point is in, run at the point's memrefs and input blocks, over what the point before left in the accumulator.  The
  region's invariant carries the accumulator at exactly those contents from one point to the next (`PhiS`); before the
  first point it is the plain "scratch at anything".  The proof data name the output's contents by `outsAt1`, and the
  body obligation is a case split on the point's position in its run of 43.
-/
import proofs.«164616_j63883343560961_1_alg».proof.Proof.K.R1RunC

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output buffer at a point that stores nothing into it: nothing reads it (the window is idle
    there and not written back). -/
def outIdle : Vec F S2048x1024 .f32 := VO1_3.read (Elt F) VO1_3.junk

/-- The first case's accumulator stores cover the accumulator. -/
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What the first case leaves in the accumulator. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) (y : S2048x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S2048x1024.size (by sl_kernel_rfl) y

/-- What a middle case leaves in the accumulator, over what the point before left. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs).2.1)

theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S2048x1024.size (by sl_kernel_rfl) y

/-- What the last case leaves in the output buffer. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs).1)

theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S2048x1024.size (by sl_kernel_rfl) y

/-- What the last case leaves in the accumulator. -/
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs).2.1)

/-! ## What the output buffer and the accumulator hold after each point -/

/-- THE ACCUMULATION: (output buffer, accumulator) after the body at position `n`. -/
def outsAt1 (c : Dev nD) : (n : ℕ) → n < cfg1.N → Vec F S2048x1024 .f32 × Vec F S2048x1024 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of a run. -/
theorem outsAt1_A (c : Dev nD) (t : Fin cfg1.N) (h0 : t.val % 43 = 0) (h1 : ¬t.val % 43 = 42) :
    outsAt1 V c t.val t.isLt = (outIdle, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 43 = 0) (h1 : ¬t.val % 43 = 42) :
    outsAt1 V c t.val t.isLt = (outIdle, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point: over what the point before left. -/
theorem outsAt1_C (c : Dev nD) (t : Fin cfg1.N) (h0 : ¬t.val % 43 = 0) (h1 : t.val % 43 = 42) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers other than this region's staging buffers and the accumulator — the other region's staging
    buffers — each at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f))

/-- What rides beside the accumulator: those buffers and the generator register at some state. -/
def rest1 (c : Dev nD) : sProp 𝕄 := iprop(others1 (F := F) c ∗ ∃ r, prngReg c r)

/-- The plain invariant "every scratch at anything" gives the accumulator at some contents beside the rest, -/
theorem PhiA1_split (c : Dev nD) :
    (Pipeline.ΦA spec1 c : sProp 𝕄) ⊢ iprop((∃ d, owns (c : Thread nD τ) scM1 fullShare d) ∗ rest1 (F := F) c) := by
  unfold Pipeline.ΦA rest1 others1; rw [scopedRest1_eq]; simp only [scM1, owns_whole]
  iintro ⟨⟨H1, H2, H3, H4, H5, H6, H7, H8, H9, H10, H11, H12, HS⟩, Hg⟩
  isplitl [HS]; · iexact HS
  isplitl [H1 H2 H3 H4 H5 H6 H7 H8 H9 H10 H11 H12]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- and back. -/
theorem PhiA1_join (c : Dev nD) :
    iprop((∃ d, owns (c : Thread nD τ) scM1 fullShare d) ∗ rest1 (F := F) c) ⊢ (Pipeline.ΦA spec1 c : sProp 𝕄) := by
  unfold Pipeline.ΦA rest1 others1; rw [scopedRest1_eq]; simp only [scM1, owns_whole]
  iintro ⟨HS, ⟨H1, H2, H3, H4, H5, H6, H7, H8, H9, H10, H11, H12⟩, Hg⟩
  isplitl [H1 H2 H3 H4 H5 H6 H7 H8 H9 H10 H11 H12 HS]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point the plain one; afterwards the accumulator at what the
    point before left, beside the rest. -/
def PhiS (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1 fullShare ((outsAt1 V c n hn).2) ∗ rest1 (F := F) c) := rfl

theorem PhiS_pos (c : Dev nD) (n : ℕ) (h : n ≤ cfg1.N) (hz : n ≠ 0) :
    PhiS V c n h = iprop(owns (c : Thread nD τ) scM1 fullShare ((outsAt1 V c (n - 1) (by omega)).2) ∗ rest1 (F := F) c) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

end Cert.Kernel.Frm

end
-- ==== Proof.K.R1Body.lean ====
/-
  Region 1's body obligation.  At a point t the position in its run of 43 decides the case: first (t ≡ 0), last
  (t ≡ 42), middle otherwise.  In each case the input windows' memrefs hold their blocks; the invariant hands the body the
  accumulator at what the point before left (at anything before the very first point, where it is reset anyway) and
  takes it back at this point's contents; where the body stores nothing into the output window its buffer is handed
  back as found; the core owes nothing throughout.  Before the first point and after the last the invariant is the
  plain one (every scratch at anything), which is what the region's entry gives and its exit wants.
-/
import proofs.«164616_j63883343560961_1_alg».proof.Proof.K.R1

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 688 := lt_of_lt_of_eq t.isLt (show cfg1.N = 688 from N_1)
  by_cases h0 : t.val % 43 = 0
  · have h1 : ¬t.val % 43 = 42 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, Hr⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_A c _ _ _ _ _ _ _ _ _ _ _ _ _ _ _ _)
        iexact Hr
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_A c _ _ _ _ _ _ _ _ _ _ _ _ _ _ _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 43 = 42
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr]
      · isplitl [HS]
        · unfold owns; iexists _; isplitr
          swap; · iexact HS
          ipureintro; exact View.read_writes_of_cover _ _ _ _ _ (scover1_C c _ _ _ _ _ _ _ _ _ _ _ _ _ _ _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_B c _ _ _ _ _ _ _ _ _ _ _ _ _ _ _ _ _)
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands over is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 688 := N_1; omega)]
  iintro ⟨HS, Hr⟩
  iapply (PhiA1_join (F := F) c)
  isplitl [HS]; · iexists _; iexact HS
  iexact Hr

end Cert.Kernel.Frm

end
-- ==== Proof.K.Run.lean ====
/-
  The run of @main from the launch to the return, at any float instance: eight host operations (the flattening of the
  activations, the casts of the four matrices, the three scales as rows), the gate / up / SiLU region, the down-projection
  region, one host operation (the result reshaped back).

  The contents of the core's buffers at each boundary are a fold from the launch memory (`WA0` … `WA4`): a host
  stretch applies its operations; a region leaves each of its arrays at what its write-backs fold to and every other
  buffer as it found it.  Each region is a segment entered from "every unscoped buffer at the boundary's contents, the
  generator register at some state, nothing owed" and left at the next boundary's; the launch composes the four segments.
  `run_all`: every weakly fair execution terminates and every final memory holds every unscoped buffer at `WA4`.  Read at
  the argument arrays — which no host operation writes and no region's window covers — that is the frame claim.
-/
import proofs.«164616_j63883343560961_1_alg».proof.Proof.K.R0
import proofs.«164616_j63883343560961_1_alg».proof.Proof.K.R1Body
import proofs.«164616_j63883343560961_1_alg».proof.Proof.Gen.Kernel.Regions

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev WA0 : Dev nD → Valuation τ sig (Elt F) := fun c b => (s₀ m ρ).mem ((c : Dev nD), b)
/-- After the first host stretch (region 0's entry). -/
abbrev WA1 : Dev nD → Valuation τ sig (Elt F) := fun c => StableHlo.after hostOps0 (WA0 m ρ c)
abbrev VA1 : (c : Dev nD) → (b : Ref sig .tc) → Buf (Elt F) ((c : Thread nD τ).loc b) := fun c b => WA1 m ρ c b
/-- At region 0's exit (region 1's entry): its arrays at what the pipeline leaves, every other buffer as entered. -/
def WA2 (c : Dev nD) : Valuation τ sig (Elt F) :=
  Pipeline.withArrays spec0 c (WA1 m ρ c) fun w => (dat0 (VA1 m ρ) c).arrAt w cfg0.N
theorem WA2_arr (c : Dev nD) (w : Fin cfg0.W) :
    WA2 m ρ c (Proc.devRef .tc (Pipeline.arrRef spec0 w)) = (dat0 (VA1 m ρ) c).arrAt w cfg0.N := by
  unfold WA2; exact Pipeline.withArrays_arr spec0 launch0.win.arr_inj c _ _ w
theorem WA2_of_ne (c : Dev nD) (b : Ref sig .tc) (hb : ∀ w, Pipeline.arrRef spec0 w ≠ b) :
    WA2 m ρ c (Proc.devRef .tc b) = WA1 m ρ c (Proc.devRef .tc b) := by
  unfold WA2; exact Pipeline.withArrays_of_ne spec0 c _ _ b hb
abbrev VA2 : (c : Dev nD) → (b : Ref sig .tc) → Buf (Elt F) ((c : Thread nD τ).loc b) := fun c b => WA2 m ρ c b
theorem hF0 (c : Dev nD) (w : Fin cfg0.W) : (dat0 (VA1 m ρ) c).arrAt w cfg0.N = VA2 m ρ c (Pipeline.arrRef spec0 w) :=
  (WA2_arr m ρ c w).symm
theorem hrest0 (c : Dev nD) : ∀ b, b ∉ Finset.univ.image (Pipeline.arrRef spec0) → VA2 m ρ c b = VA1 m ρ c b :=
  fun b hb => WA2_of_ne m ρ c b fun w e => hb (Finset.mem_image.mpr ⟨w, Finset.mem_univ _, e⟩)

/-- At region 1's exit. -/
def WA3 (c : Dev nD) : Valuation τ sig (Elt F) :=
  Pipeline.withArrays spec1 c (WA2 m ρ c) fun w => (dat1 (VA2 m ρ) c).arrAt w cfg1.N
theorem WA3_arr (c : Dev nD) (w : Fin cfg1.W) :
    WA3 m ρ c (Proc.devRef .tc (Pipeline.arrRef spec1 w)) = (dat1 (VA2 m ρ) c).arrAt w cfg1.N := by
  unfold WA3; exact Pipeline.withArrays_arr spec1 launch1.win.arr_inj c _ _ w
theorem WA3_of_ne (c : Dev nD) (b : Ref sig .tc) (hb : ∀ w, Pipeline.arrRef spec1 w ≠ b) :
    WA3 m ρ c (Proc.devRef .tc b) = WA2 m ρ c (Proc.devRef .tc b) := by
  unfold WA3; exact Pipeline.withArrays_of_ne spec1 c _ _ b hb
abbrev VA3 : (c : Dev nD) → (b : Ref sig .tc) → Buf (Elt F) ((c : Thread nD τ).loc b) := fun c b => WA3 m ρ c b
theorem hF1 (c : Dev nD) (w : Fin cfg1.W) : (dat1 (VA2 m ρ) c).arrAt w cfg1.N = VA3 m ρ c (Pipeline.arrRef spec1 w) :=
  (WA3_arr m ρ c w).symm
theorem hrest1 (c : Dev nD) : ∀ b, b ∉ Finset.univ.image (Pipeline.arrRef spec1) → VA3 m ρ c b = VA2 m ρ c b :=
  fun b hb => WA3_of_ne m ρ c b fun w e => hb (Finset.mem_image.mpr ⟨w, Finset.mem_univ _, e⟩)

/-- After the last host stretch: what the program returns with. -/
abbrev WA4 : Dev nD → Valuation τ sig (Elt F) := fun c => StableHlo.after hostOps2 (WA3 m ρ c)

/-- A buffer that no host operation writes and no window of either region covers ends as launched. -/
theorem WA4_of_arg (c : Dev nD) (r : Ref sig .tc) (h0 : r ∉ hostOps0_W) (h2 : r ∉ hostOps2_W)
    (hs0 : ∀ w, Pipeline.arrRef spec0 w ≠ r) (hs1 : ∀ w, Pipeline.arrRef spec1 w ≠ r) :
    WA4 m ρ c (Proc.devRef .tc r) = m ((c : Thread nD τ).loc r) :=
  (StableHlo.after_of_writes_sub hostOps2 _ hostOps2_writes h2).trans <| (WA3_of_ne m ρ c r hs1).trans <|
    (WA2_of_ne m ρ c r hs0).trans <| (StableHlo.after_of_writes_sub hostOps0 _ hostOps0_writes h0).trans rfl

theorem WA4_main_arg0 (c : Dev nD) : WA4 m ρ c (Proc.devRef .tc main_arg0) = m ((c : Thread nD τ).loc main_arg0) :=
  WA4_of_arg m ρ c main_arg0 (by decide) (by decide) (by decide) (by decide)
theorem WA4_main_arg1 (c : Dev nD) : WA4 m ρ c (Proc.devRef .tc main_arg1) = m ((c : Thread nD τ).loc main_arg1) :=
  WA4_of_arg m ρ c main_arg1 (by decide) (by decide) (by decide) (by decide)
theorem WA4_main_arg2 (c : Dev nD) : WA4 m ρ c (Proc.devRef .tc main_arg2) = m ((c : Thread nD τ).loc main_arg2) :=
  WA4_of_arg m ρ c main_arg2 (by decide) (by decide) (by decide) (by decide)
theorem WA4_main_arg3 (c : Dev nD) : WA4 m ρ c (Proc.devRef .tc main_arg3) = m ((c : Thread nD τ).loc main_arg3) :=
  WA4_of_arg m ρ c main_arg3 (by decide) (by decide) (by decide) (by decide)
theorem WA4_main_arg4 (c : Dev nD) : WA4 m ρ c (Proc.devRef .tc main_arg4) = m ((c : Thread nD τ).loc main_arg4) :=
  WA4_of_arg m ρ c main_arg4 (by decide) (by decide) (by decide) (by decide)
theorem WA4_main_arg5 (c : Dev nD) : WA4 m ρ c (Proc.devRef .tc main_arg5) = m ((c : Thread nD τ).loc main_arg5) :=
  WA4_of_arg m ρ c main_arg5 (by decide) (by decide) (by decide) (by decide)
theorem WA4_main_arg6 (c : Dev nD) : WA4 m ρ c (Proc.devRef .tc main_arg6) = m ((c : Thread nD τ).loc main_arg6) :=
  WA4_of_arg m ρ c main_arg6 (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA1 m ρ) c
  | ⟨1, _⟩ => fun c => dat1 (VA2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (WA4 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA1 m ρ) c).loose
  hwaits := Pipeline.hwaits_of_owed_zero _ _ _ _ L lv 0 fun _ _ => rfl
  pre c := iprop(StableHlo.held (c : Thread nD τ) (Pipeline.ucRefs τ sig) (WA1 m ρ c) ∗ R c)
  post c := iprop(StableHlo.held (c : Thread nD τ) (Pipeline.ucRefs τ sig) (WA2 m ρ c) ∗ R c)
  X c := iprop(∃ r, prngReg c r)
  Y c := iprop(∃ r, prngReg c r)
  Z c := Pipeline.unscopedRest (Ix := Unit) (Name := ℕ) (U := UR sig nD τ) (Lvl := ℕ) spec0 c (VA1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA1 m ρ c) (VA2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VA2 m ρ) c).loose
  hwaits := Pipeline.hwaits_of_owed_zero _ _ _ _ L lv 1 fun _ _ => rfl
  pre c := iprop(StableHlo.held (c : Thread nD τ) (Pipeline.ucRefs τ sig) (WA2 m ρ c) ∗ R c)
  post c := iprop(StableHlo.held (c : Thread nD τ) (Pipeline.ucRefs τ sig) (WA3 m ρ c) ∗ R c)
  X c := iprop(∃ r, prngReg c r)
  Y c := iprop(∃ r, prngReg c r)
  Z c := Pipeline.unscopedRest (Ix := Unit) (Name := ℕ) (U := UR sig nD τ) (Lvl := ℕ) spec1 c (VA2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VA2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (VA2 m ρ) c
    exact (show _ ⊢ (Pipeline.ΦA spec1 c : sProp 𝕄) from by
      unfold Pipeline.ΦA
      iintro ⟨Hp, -, Hr⟩
      isplitl [Hr]; · iexact Hr
      iexact Hp).trans h
  hout c := by
    rw [Pipeline.ownSems0_none]
    have h : (pdats m ρ 1 c).Φ (Fin.last _) ⊢ (Pipeline.ΦA spec1 c : sProp 𝕄) := hout1 (VA2 m ρ) c
    exact h.trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VA2 m ρ c) (VA3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (WA0 m ρ)),
    .region (reg0 m ρ),
    .region (reg1 m ρ),
    .host (hseg hostOps2 hostOps2_sub hostOps2_fresh (WA3 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, and every final memory holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WA4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA0 m ρ c) ∗ R c)) (Tₙ := Tₙ m ρ)
    (hch := ⟨fun _ => .rfl, fun _ => .rfl, fun _ => .rfl, fun _ => .rfl, fun c => (show iprop(StableHlo.held (c : Thread nD τ) (Pipeline.ucRefs τ sig) (WA4 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (WA0 m ρ c)
        from Pipeline.unscopedBufs_held c (WA0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WA4 m ρ c b)
    (hfin := fun c s' => by
      iintro ⟨⟨Hh, -⟩, HSI⟩
      unfold StableHlo.held
      imodintro
      iapply (pointsTo_read_all (Pipeline.ucRefs τ sig) (fun b => (((c : Thread nD τ)).1, b)) (WA4 m ρ c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (WA4_main_arg0 m ρ c),
     (h c _ (mem_uc main_arg1 (by decide))).trans (WA4_main_arg1 m ρ c),
     (h c _ (mem_uc main_arg2 (by decide))).trans (WA4_main_arg2 m ρ c),
     (h c _ (mem_uc main_arg3 (by decide))).trans (WA4_main_arg3 m ρ c),
     (h c _ (mem_uc main_arg4 (by decide))).trans (WA4_main_arg4 m ρ c),
     (h c _ (mem_uc main_arg5 (by decide))).trans (WA4_main_arg5 m ρ c),
     (h c _ (mem_uc main_arg6 (by decide))).trans (WA4_main_arg6 m ρ c)⟩) (run_all m ρ)

end Cert.Kernel.Frm

end
-- ==== Proof.KI.Base.lean ====
/-
  What the two kernel regions share, at any float instance and at a PARAMETER `V`: the contents of the core's
  buffers when a region is entered.

  Region 0 (the fused gate / up / SiLU kernel, grid 8 × 43) reads five input windows and writes one output block per
  point.  Region 1 (the down projection, grid 4 × 4 × 43) reads three input windows, keeps a 2048 × 1024 accumulator in a
  scratch buffer across the 43 points of the contracted axis, and stores its output block only at the last of them.

  Here: each window's block at a point read off its array (`iblk0`, `iblk1`); that an input window's staging buffer
  holds that block whenever the body runs, fetched at that point or kept from an earlier one (`beforeK_W_of`); region 1's
  two branch conditions over the grid in closed form (the first point of a run of 43 resets the accumulator, the last
  one stores the output), and where its output window is idle and where it is written back.
-/
import proofs.«164616_j63883343560961_1_alg».proof.Proof.Gen.KernelIdeal.Launch
import proofs.«164616_j63883343560961_1_alg».proof.Proof.Gen.KernelIdeal.Skeleton
import proofs.«164616_j63883343560961_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Region 1: the body's two conditions over the grid -/

/-- "This is the first point of its run along the contracted axis" (coordinate 2 is zero): the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last point of its run" (coordinate 2 is 42): the output block is stored. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Region 1: where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the output block is not stored the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it is stored the window is live. -/
theorem liveAt1_3 : ∀ t : Fin cfg1.N, cond1_1 (grid1.coords t) → cfg1.idle 3 (grid1.coords t) = false := by decide +kernel

/-! ## Region 1: the memrefs the body is called with -/

/-- One staging buffer of the output window, through which its contents are stated. -/
abbrev VO1_3 : View sig .tc .vmem S2048x1024 .f32 := (Memref.whole cc1_stg3_0 : Memref sig .tc .vmem S2048x1024 .f32).view
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: the scratch buffer the body keeps between points. -/
abbrev scM1 : Memref sig .tc .vmem S2048x1024 .f32 := Memref.whole cc1_scratch0
abbrev VS1 : View sig .tc .vmem S2048x1024 .f32 := scM1.view

end Cert.KernelIdeal.Frm

end
-- ==== Proof.KI.R0.lean ====
/-
  Region 0, the fused gate / up / SiLU kernel, at any float instance and at the entry contents `V`.

  At every grid point the body loads its five input blocks whole (a 1024-row block of the activations, 256-row blocks of
  the two weight matrices, 256-lane blocks of the two scales), computes ONE value — the block of the hidden activation —
  and stores it whole into the output window's staging buffer.  So what the output buffer holds after the body is that
  one store read back (`out0_5`), a function of the five input blocks alone; the proof data name it, and the body
  obligation is the body's triple at the blocks the input windows hold.
-/
import proofs.«164616_j63883343560961_1_alg».proof.Proof.KI.Base

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses: each buffer whole -/

abbrev r0_x : Rect S1024x4096 := Rect.unit (s := S1024x4096) ![0, 0] S1024x4096.size inb_S1024x4096_S1024x4096_0_0
abbrev r0_w : Rect S256x4096 := Rect.unit (s := S256x4096) ![0, 0] S256x4096.size inb_S256x4096_S256x4096_0_0
abbrev r0_a : Rect S1x256 := Rect.unit (s := S1x256) ![0, 0] S1x256.size inb_S1x256_S1x256_0_0
abbrev r0_h : Rect S1024x256 := Rect.unit (s := S1024x256) ![0, 0] S1024x256.size inb_S1024x256_S1024x256_0_0

/-! ## What the body leaves in the output window's buffer -/

/-- The output buffer after the body, from the input blocks: its one store read back. -/
def out0_5 (x0 : Vec F S1024x4096 .bf16) (x1 x2 : Vec F S256x4096 .bf16) (x3 x4 : Vec F S1x256 .f32) : Vec F S1024x256 .bf16 :=
  View.canon [⟨r0_h, k0_pay1 (View.ld x0 r0_x) (View.ld x1 r0_w) (View.ld x2 r0_w) (View.ld x3 r0_a) (View.ld x4 r0_a)⟩]

/-- The store covers the buffer. -/
theorem cover0_5 (p0 : Vec F S1024x256 .bf16) (y : S1024x256.Idx) :
    ∃ pc ∈ ([⟨r0_h, p0⟩] : List (View.Piece (Elt F) S1024x256 .bf16)), y ∈ pc.1.set :=
  View.cover_of_tiled [⟨r0_h, p0⟩] S1024x256.size (by rfl) y

/-! ## The body's triple -/

set_option maxHeartbeats 4000000 in
/-- On whole staging memrefs, the inputs' at contents `xW` and the output's at anything, the body runs to the
    continuation holding the inputs' as they were and the output's at `out0_5` of them. -/
theorem sound_kernel0 (c : Dev nD) (E : Set ℕ) (i : grid0.Coords) (arg2 : Memref sig .tc .vmem S1024x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole)
    (x0 : Vec F S1024x4096 .bf16) (x1 x2 : Vec F S256x4096 .bf16) (x3 x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__gate_up_kernel i arg2 harg2 arg3 harg3 arg4 harg4 arg5 harg5 arg6 harg6 arg7 harg7) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- Region 0's proof data on core `c`: the arrays as the region finds them; after the body at point `t` each input's
    buffer at its block and the output's at `out0_5` of the input blocks; the scoped rest and the generator register ride
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1RunA.lean ====
/-
  The down-projection body run whole in ONE of its three control cases — the FIRST point of a run along the contracted axis: the accumulator is reset to zero, then the block product is added — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.KI.Base

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Frm

end
-- ==== Proof.KI.R1RunB.lean ====
/-
  The down-projection body run whole in ONE of its three control cases — a MIDDLE point: the block product is added to the accumulator the point before left — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.KI.R1RunA

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Frm

end
-- ==== Proof.KI.R1RunC.lean ====
/-
  The down-projection body run whole in ONE of its three control cases — the LAST point: the block product is added, and the accumulator times the per-channel scale is stored into the output buffer — on whole staging memrefs: the three
  input blocks at their contents, the output buffer and the accumulator as the case finds them.  The body runs to its end
  holding the inputs as they were; what it stored into the accumulator (and, in the last case, into the output buffer)
  is recorded as the list of pieces written, last first, found by the run itself.
-/
import proofs.«164616_j63883343560961_1_alg».proof.Proof.KI.R1RunB

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__down_kernel i arg3 harg3 arg4 harg4 arg5 harg5 arg6 harg6 arg7 harg7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Frm

end
-- ==== Proof.KI.R1.lean ====
/-
  Region 1, the down projection, at any float instance and at the entry contents `V`.

  The grid is 4 × 4 × 43; the last axis runs over the 43 blocks of the contracted (intermediate) dimension, and the body
  keeps a 2048 × 1024 accumulator in a scratch buffer across those 43 points.  At the first point of a run it resets the
  accumulator and adds the block product; at the middle points it adds the block product to what the point before left;
  at the last point it adds, then stores accumulator × scale into the output window's buffer, which the pipeline writes
  back there and only there (elsewhere the output window is idle).

  `outsAt1` says, by recursion on the point, what the output buffer and the accumulator hold after each point — the case
  the point is in, run at the point's memrefs and input blocks, over what the point before left in the accumulator.  The
  region's invariant carries the accumulator at exactly those contents from one point to the next (`PhiS`); before the
  first point it is the plain "scratch at anything".  The proof data name the output's contents by `outsAt1`, and the
  body obligation is a case split on the point's position in its run of 43.
-/
import proofs.«164616_j63883343560961_1_alg».proof.Proof.KI.R1RunC

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output buffer at a point that stores nothing into it: nothing reads it (the window is idle
    there and not written back). -/
def outIdle : Vec F S2048x1024 .f32 := VO1_3.read (Elt F) VO1_3.junk

/-- The first case's accumulator stores cover the accumulator. -/
theorem scover1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What the first case leaves in the accumulator. -/
def sout1_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).2.1)

theorem scover1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) (y : S2048x1024.Idx) :
    ∃ pc ∈ (kernelRun1_B c i arg3 harg3 arg4 harg4 arg5 harg5 arg6 harg6 arg7 harg7 hc0 hc1 x0 x1 x2 xs).2.1, y ∈ pc.1.set :=
  View.cover_of_tiledL (kernelRun1_B c i arg3 harg3 arg4 harg4 arg5 harg5 arg6 harg6 arg7 harg7 hc0 hc1 x0 x1 x2 xs).2.1 S2048x1024.size (by sl_kernel_rfl) y

/-- What a middle case leaves in the accumulator, over what the point before left. -/
def sout1_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs).2.1)

theorem cover1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S2048x1024.size (by sl_kernel_rfl) y

/-- What the last case leaves in the output buffer. -/
def out1_C_3 (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs).1)

theorem scover1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) (y : S2048x1024.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S2048x1024.size (by sl_kernel_rfl) y

/-- What the last case leaves in the accumulator. -/
def sout1_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs).2.1)

/-! ## What the output buffer and the accumulator hold after each point -/

/-- THE ACCUMULATION: (output buffer, accumulator) after the body at position `n`. -/
def outsAt1 (c : Dev nD) : (n : ℕ) → n < cfg1.N → Vec F S2048x1024 .f32 × Vec F S2048x1024 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 43 = 0 then
      if h1 : (n + 1) % 43 = 42 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 43 = 42 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of a run. -/
theorem outsAt1_A (c : Dev nD) (t : Fin cfg1.N) (h0 : t.val % 43 = 0) (h1 : ¬t.val % 43 = 42) :
    outsAt1 V c t.val t.isLt = (outIdle, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point: over what the point before left. -/
theorem outsAt1_B (c : Dev nD) (t : Fin cfg1.N) (h0 : ¬t.val % 43 = 0) (h1 : ¬t.val % 43 = 42) :
    outsAt1 V c t.val t.isLt = (outIdle, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point: over what the point before left. -/
theorem outsAt1_C (c : Dev nD) (t : Fin cfg1.N) (h0 : ¬t.val % 43 = 0) (h1 : t.val % 43 = 42) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers other than this region's staging buffers and the accumulator — the other region's staging
    buffers — each at some contents. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f))

/-- What rides beside the accumulator: those buffers and the generator register at some state. -/
def rest1 (c : Dev nD) : sProp 𝕄 := iprop(others1 (F := F) c ∗ ∃ r, prngReg c r)

/-- The plain invariant "every scratch at anything" gives the accumulator at some contents beside the rest, -/
theorem PhiA1_split (c : Dev nD) :
    (Pipeline.ΦA spec1 c : sProp 𝕄) ⊢ iprop((∃ d, owns (c : Thread nD τ) scM1 fullShare d) ∗ rest1 (F := F) c) := by
  unfold Pipeline.ΦA rest1 others1; rw [scopedRest1_eq]; simp only [scM1, owns_whole]
  iintro ⟨⟨H1, H2, H3, H4, H5, H6, H7, H8, H9, H10, H11, H12, HS⟩, Hg⟩
  isplitl [HS]; · iexact HS
  isplitl [H1 H2 H3 H4 H5 H6 H7 H8 H9 H10 H11 H12]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- and back. -/
theorem PhiA1_join (c : Dev nD) :
    iprop((∃ d, owns (c : Thread nD τ) scM1 fullShare d) ∗ rest1 (F := F) c) ⊢ (Pipeline.ΦA spec1 c : sProp 𝕄) := by
  unfold Pipeline.ΦA rest1 others1; rw [scopedRest1_eq]; simp only [scM1, owns_whole]
  iintro ⟨HS, ⟨H1, H2, H3, H4, H5, H6, H7, H8, H9, H10, H11, H12⟩, Hg⟩
  isplitl [H1 H2 H3 H4 H5 H6 H7 H8 H9 H10 H11 H12 HS]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point the plain one; afterwards the accumulator at what the
    point before left, beside the rest. -/
def PhiS (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1 fullShare ((outsAt1 V c n hn).2) ∗ rest1 (F := F) c) := rfl

theorem PhiS_pos (c : Dev nD) (n : ℕ) (h : n ≤ cfg1.N) (hz : n ≠ 0) :
    PhiS V c n h = iprop(owns (c : Thread nD τ) scM1 fullShare ((outsAt1 V c (n - 1) (by omega)).2) ∗ rest1 (F := F) c) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

end Cert.KernelIdeal.Frm

end
-- ==== Proof.KI.R1Body.lean ====
/-
  Region 1's body obligation.  At a point t the position in its run of 43 decides the case: first (t ≡ 0), last
  (t ≡ 42), middle otherwise.  In each case the input windows' memrefs hold their blocks; the invariant hands the body the
  accumulator at what the point before left (at anything before the very first point, where it is reset anyway) and
  takes it back at this point's contents; where the body stores nothing into the output window its buffer is handed
  back as found; the core owes nothing throughout.  Before the first point and after the last the invariant is the
  plain one (every scratch at anything), which is what the region's entry gives and its exit wants.
-/
import proofs.«164616_j63883343560961_1_alg».proof.Proof.KI.R1

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 688 := lt_of_lt_of_eq t.isLt (show cfg1.N = 688 from N_1)
  by_cases h0 : t.val % 43 = 0
  · have h1 : ¬t.val % 43 = 42 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, Hr⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_A c _ _ _ _ _ _ _ _ _ _ _ _ _ _ _ _)
        iexact Hr
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_A c _ _ _ _ _ _ _ _ _ _ _ _ _ _ _ _)
        iexact Hr
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 43 = 42
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr]
      · isplitl [HS]
        · unfold owns; iexists _; isplitr
          swap; · iexact HS
          ipureintro; exact View.read_writes_of_cover _ _ _ _ _ (scover1_C c _ _ _ _ _ _ _ _ _ _ _ _ _ _ _ _ _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨⟨HS, Hr⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr]
      · isplitl [HS]
        · unfold owns; iexists _; isplitr
          swap; · iexact HS
          ipureintro; exact View.read_writes_of_cover _ _ _ _ _ (scover1_B c _ _ _ _ _ _ _ _ _ _ _ _ _ _ _ _ _)
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands over is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 688 := N_1; omega)]
  iintro ⟨HS, Hr⟩
  iapply (PhiA1_join (F := F) c)
  isplitl [HS]; · iexists _; iexact HS
  iexact Hr

end Cert.KernelIdeal.Frm

end
-- ==== Proof.KI.Run.lean ====
/-
  The run of @main from the launch to the return, at any float instance: eight host operations (the flattening of the
  activations, the casts of the four matrices, the three scales as rows), the gate / up / SiLU region, the down-projection
  region, one host operation (the result reshaped back).

  The contents of the core's buffers at each boundary are a fold from the launch memory (`WA0` … `WA4`): a host
  stretch applies its operations; a region leaves each of its arrays at what its write-backs fold to and every other
  buffer as it found it.  Each region is a segment entered from "every unscoped buffer at the boundary's contents, the
  generator register at some state, nothing owed" and left at the next boundary's; the launch composes the four segments.
  `run_all`: every weakly fair execution terminates and every final memory holds every unscoped buffer at `WA4`.  Read at
  the argument arrays — which no host operation writes and no region's window covers — that is the frame claim.
-/
import proofs.«164616_j63883343560961_1_alg».proof.Proof.KI.R0
import proofs.«164616_j63883343560961_1_alg».proof.Proof.KI.R1Body
import proofs.«164616_j63883343560961_1_alg».proof.Proof.Gen.KernelIdeal.Regions

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev WA0 : Dev nD → Valuation τ sig (Elt F) := fun c b => (s₀ m ρ).mem ((c : Dev nD), b)
/-- After the first host stretch (region 0's entry). -/
abbrev WA1 : Dev nD → Valuation τ sig (Elt F) := fun c => StableHlo.after hostOps0 (WA0 m ρ c)
abbrev VA1 : (c : Dev nD) → (b : Ref sig .tc) → Buf (Elt F) ((c : Thread nD τ).loc b) := fun c b => WA1 m ρ c b
/-- At region 0's exit (region 1's entry): its arrays at what the pipeline leaves, every other buffer as entered. -/
def WA2 (c : Dev nD) : Valuation τ sig (Elt F) :=
  Pipeline.withArrays spec0 c (WA1 m ρ c) fun w => (dat0 (VA1 m ρ) c).arrAt w cfg0.N
theorem WA2_arr (c : Dev nD) (w : Fin cfg0.W) :
    WA2 m ρ c (Proc.devRef .tc (Pipeline.arrRef spec0 w)) = (dat0 (VA1 m ρ) c).arrAt w cfg0.N := by
  unfold WA2; exact Pipeline.withArrays_arr spec0 launch0.win.arr_inj c _ _ w
theorem WA2_of_ne (c : Dev nD) (b : Ref sig .tc) (hb : ∀ w, Pipeline.arrRef spec0 w ≠ b) :
    WA2 m ρ c (Proc.devRef .tc b) = WA1 m ρ c (Proc.devRef .tc b) := by
  unfold WA2; exact Pipeline.withArrays_of_ne spec0 c _ _ b hb
abbrev VA2 : (c : Dev nD) → (b : Ref sig .tc) → Buf (Elt F) ((c : Thread nD τ).loc b) := fun c b => WA2 m ρ c b
theorem hF0 (c : Dev nD) (w : Fin cfg0.W) : (dat0 (VA1 m ρ) c).arrAt w cfg0.N = VA2 m ρ c (Pipeline.arrRef spec0 w) :=
  (WA2_arr m ρ c w).symm
theorem hrest0 (c : Dev nD) : ∀ b, b ∉ Finset.univ.image (Pipeline.arrRef spec0) → VA2 m ρ c b = VA1 m ρ c b :=
  fun b hb => WA2_of_ne m ρ c b fun w e => hb (Finset.mem_image.mpr ⟨w, Finset.mem_univ _, e⟩)

/-- At region 1's exit. -/
def WA3 (c : Dev nD) : Valuation τ sig (Elt F) :=
  Pipeline.withArrays spec1 c (WA2 m ρ c) fun w => (dat1 (VA2 m ρ) c).arrAt w cfg1.N
theorem WA3_arr (c : Dev nD) (w : Fin cfg1.W) :
    WA3 m ρ c (Proc.devRef .tc (Pipeline.arrRef spec1 w)) = (dat1 (VA2 m ρ) c).arrAt w cfg1.N := by
  unfold WA3; exact Pipeline.withArrays_arr spec1 launch1.win.arr_inj c _ _ w
theorem WA3_of_ne (c : Dev nD) (b : Ref sig .tc) (hb : ∀ w, Pipeline.arrRef spec1 w ≠ b) :
    WA3 m ρ c (Proc.devRef .tc b) = WA2 m ρ c (Proc.devRef .tc b) := by
  unfold WA3; exact Pipeline.withArrays_of_ne spec1 c _ _ b hb
abbrev VA3 : (c : Dev nD) → (b : Ref sig .tc) → Buf (Elt F) ((c : Thread nD τ).loc b) := fun c b => WA3 m ρ c b
theorem hF1 (c : Dev nD) (w : Fin cfg1.W) : (dat1 (VA2 m ρ) c).arrAt w cfg1.N = VA3 m ρ c (Pipeline.arrRef spec1 w) :=
  (WA3_arr m ρ c w).symm
theorem hrest1 (c : Dev nD) : ∀ b, b ∉ Finset.univ.image (Pipeline.arrRef spec1) → VA3 m ρ c b = VA2 m ρ c b :=
  fun b hb => WA3_of_ne m ρ c b fun w e => hb (Finset.mem_image.mpr ⟨w, Finset.mem_univ _, e⟩)

/-- After the last host stretch: what the program returns with. -/
abbrev WA4 : Dev nD → Valuation τ sig (Elt F) := fun c => StableHlo.after hostOps2 (WA3 m ρ c)

/-- A buffer that no host operation writes and no window of either region covers ends as launched. -/
theorem WA4_of_arg (c : Dev nD) (r : Ref sig .tc) (h0 : r ∉ hostOps0_W) (h2 : r ∉ hostOps2_W)
    (hs0 : ∀ w, Pipeline.arrRef spec0 w ≠ r) (hs1 : ∀ w, Pipeline.arrRef spec1 w ≠ r) :
    WA4 m ρ c (Proc.devRef .tc r) = m ((c : Thread nD τ).loc r) :=
  (StableHlo.after_of_writes_sub hostOps2 _ hostOps2_writes h2).trans <| (WA3_of_ne m ρ c r hs1).trans <|
    (WA2_of_ne m ρ c r hs0).trans <| (StableHlo.after_of_writes_sub hostOps0 _ hostOps0_writes h0).trans rfl

theorem WA4_main_arg0 (c : Dev nD) : WA4 m ρ c (Proc.devRef .tc main_arg0) = m ((c : Thread nD τ).loc main_arg0) :=
  WA4_of_arg m ρ c main_arg0 (by decide) (by decide) (by decide) (by decide)
theorem WA4_main_arg1 (c : Dev nD) : WA4 m ρ c (Proc.devRef .tc main_arg1) = m ((c : Thread nD τ).loc main_arg1) :=
  WA4_of_arg m ρ c main_arg1 (by decide) (by decide) (by decide) (by decide)
theorem WA4_main_arg2 (c : Dev nD) : WA4 m ρ c (Proc.devRef .tc main_arg2) = m ((c : Thread nD τ).loc main_arg2) :=
  WA4_of_arg m ρ c main_arg2 (by decide) (by decide) (by decide) (by decide)
theorem WA4_main_arg3 (c : Dev nD) : WA4 m ρ c (Proc.devRef .tc main_arg3) = m ((c : Thread nD τ).loc main_arg3) :=
  WA4_of_arg m ρ c main_arg3 (by decide) (by decide) (by decide) (by decide)
theorem WA4_main_arg4 (c : Dev nD) : WA4 m ρ c (Proc.devRef .tc main_arg4) = m ((c : Thread nD τ).loc main_arg4) :=
  WA4_of_arg m ρ c main_arg4 (by decide) (by decide) (by decide) (by decide)
theorem WA4_main_arg5 (c : Dev nD) : WA4 m ρ c (Proc.devRef .tc main_arg5) = m ((c : Thread nD τ).loc main_arg5) :=
  WA4_of_arg m ρ c main_arg5 (by decide) (by decide) (by decide) (by decide)
theorem WA4_main_arg6 (c : Dev nD) : WA4 m ρ c (Proc.devRef .tc main_arg6) = m ((c : Thread nD τ).loc main_arg6) :=
  WA4_of_arg m ρ c main_arg6 (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA1 m ρ) c
  | ⟨1, _⟩ => fun c => dat1 (VA2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (WA4 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA1 m ρ) c).loose
  hwaits := Pipeline.hwaits_of_owed_zero _ _ _ _ L lv 0 fun _ _ => rfl
  pre c := iprop(StableHlo.held (c : Thread nD τ) (Pipeline.ucRefs τ sig) (WA1 m ρ c) ∗ R c)
  post c := iprop(StableHlo.held (c : Thread nD τ) (Pipeline.ucRefs τ sig) (WA2 m ρ c) ∗ R c)
  X c := iprop(∃ r, prngReg c r)
  Y c := iprop(∃ r, prngReg c r)
  Z c := Pipeline.unscopedRest (Ix := Unit) (Name := ℕ) (U := UR sig nD τ) (Lvl := ℕ) spec0 c (VA1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA1 m ρ c) (VA2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VA2 m ρ) c).loose
  hwaits := Pipeline.hwaits_of_owed_zero _ _ _ _ L lv 1 fun _ _ => rfl
  pre c := iprop(StableHlo.held (c : Thread nD τ) (Pipeline.ucRefs τ sig) (WA2 m ρ c) ∗ R c)
  post c := iprop(StableHlo.held (c : Thread nD τ) (Pipeline.ucRefs τ sig) (WA3 m ρ c) ∗ R c)
  X c := iprop(∃ r, prngReg c r)
  Y c := iprop(∃ r, prngReg c r)
  Z c := Pipeline.unscopedRest (Ix := Unit) (Name := ℕ) (U := UR sig nD τ) (Lvl := ℕ) spec1 c (VA2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VA2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m ρ 1 c).Φ 0 := hin1 (VA2 m ρ) c
    exact (show _ ⊢ (Pipeline.ΦA spec1 c : sProp 𝕄) from by
      unfold Pipeline.ΦA
      iintro ⟨Hp, -, Hr⟩
      isplitl [Hr]; · iexact Hr
      iexact Hp).trans h
  hout c := by
    rw [Pipeline.ownSems0_none]
    have h : (pdats m ρ 1 c).Φ (Fin.last _) ⊢ (Pipeline.ΦA spec1 c : sProp 𝕄) := hout1 (VA2 m ρ) c
    exact h.trans (show (Pipeline.ΦA spec1 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VA2 m ρ c) (VA3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (WA0 m ρ)),
    .region (reg0 m ρ),
    .region (reg1 m ρ),
    .host (hseg hostOps2 hostOps2_sub hostOps2_fresh (WA3 m ρ)) ]
theorem main_run (c : Dev nD) : main (F := F) c = Pipeline.Seg.run (segs m ρ) := (main_chain c).trans (by chain_rfl)

set_option backward.isDefEq.respectTransparency.types false in
/-- THE RUN: every weakly fair execution of @main terminates, nothing faulting, and every final memory holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = WA4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA0 m ρ c) ∗ R c)) (Tₙ := Tₙ m ρ)
    (hch := ⟨fun _ => .rfl, fun _ => .rfl, fun _ => .rfl, fun _ => .rfl, fun c => (show iprop(StableHlo.held (c : Thread nD τ) (Pipeline.ucRefs τ sig) (WA4 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (WA0 m ρ c)
        from Pipeline.unscopedBufs_held c (WA0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WA4 m ρ c b)
    (hfin := fun c s' => by
      iintro ⟨⟨Hh, -⟩, HSI⟩
      unfold StableHlo.held
      imodintro
      iapply (pointsTo_read_all (Pipeline.ucRefs τ sig) (fun b => (((c : Thread nD τ)).1, b)) (WA4 m ρ c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (WA4_main_arg0 m ρ c),
     (h c _ (mem_uc main_arg1 (by decide))).trans (WA4_main_arg1 m ρ c),
     (h c _ (mem_uc main_arg2 (by decide))).trans (WA4_main_arg2 m ρ c),
     (h c _ (mem_uc main_arg3 (by decide))).trans (WA4_main_arg3 m ρ c),
     (h c _ (mem_uc main_arg4 (by decide))).trans (WA4_main_arg4 m ρ c),
     (h c _ (mem_uc main_arg5 (by decide))).trans (WA4_main_arg5 m ρ c),
     (h c _ (mem_uc main_arg6 (by decide))).trans (WA4_main_arg6 m ρ c)⟩) (run_all m ρ)

end Cert.KernelIdeal.Frm

end
-- ==== Proof.Val.Pay.lean ====
/-
  The payload terms of the two kernel bodies, read at one index on the extended reals.

  At the ideal values a format change and a cast to the same shape are the identity, a matrix product into a zero
  accumulator is the plain sum over the contracted coordinate, a one-row array broadcast over many rows reads its one row,
  and the pointwise operations are the extended reals' own.  So the first kernel's block is
      ((Σ_k x[p,k]·Wg[q,k])·ag[q]) · logistic(…) · ((Σ_k x[p,k]·Wu[q,k])·au[q]),
  and the second kernel's three payloads are zero, "accumulator plus the block's partial product", and
  "accumulator times the per-column scale".
-/
import proofs.«164616_j63883343560961_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The first product's operand indices, axis by axis: [1024,4096] · [256,4096]ᵀ -/

theorem lhsA_0 (i : S1024x256.Idx) (c : Cert.KernelIdeal.dot_S1024x4096_S256x4096_S1024x256_1_1_0_0_n_n.contr.Idx) :
    (Cert.KernelIdeal.dot_S1024x4096_S256x4096_S1024x256_1_1_0_0_n_n.lhsIdx i c 0).val = (i 0).val := by
  unfold DotDims.lhsIdx
  rw [dif_neg (show ¬(0 : Fin S1024x4096.rank) ∈ Cert.KernelIdeal.dot_S1024x4096_S256x4096_S1024x256_1_1_0_0_n_n.lhsBatch by decide), dif_pos (show (0 : Fin S1024x4096.rank) ∈ Cert.KernelIdeal.dot_S1024x4096_S256x4096_S1024x256_1_1_0_0_n_n.lhsNonContracting by decide)]
  rfl
theorem lhsA_1 (i : S1024x256.Idx) (c : Cert.KernelIdeal.dot_S1024x4096_S256x4096_S1024x256_1_1_0_0_n_n.contr.Idx) :
    (Cert.KernelIdeal.dot_S1024x4096_S256x4096_S1024x256_1_1_0_0_n_n.lhsIdx i c 1).val = (c ⟨0, by decide⟩).val :=
  Cert.KernelIdeal.dot_S1024x4096_S256x4096_S1024x256_1_1_0_0_n_n.lhsIdx_val_of_single rfl i c
theorem rhsA_0 (i : S1024x256.Idx) (c : Cert.KernelIdeal.dot_S1024x4096_S256x4096_S1024x256_1_1_0_0_n_n.contr.Idx) :
    (Cert.KernelIdeal.dot_S1024x4096_S256x4096_S1024x256_1_1_0_0_n_n.rhsIdx i c 0).val = (i 1).val := by
  unfold DotDims.rhsIdx
  rw [dif_neg (show ¬(0 : Fin S256x4096.rank) ∈ Cert.KernelIdeal.dot_S1024x4096_S256x4096_S1024x256_1_1_0_0_n_n.rhsBatch by decide), dif_pos (show (0 : Fin S256x4096.rank) ∈ Cert.KernelIdeal.dot_S1024x4096_S256x4096_S1024x256_1_1_0_0_n_n.rhsNonContracting by decide)]
  rfl
theorem rhsA_1 (i : S1024x256.Idx) (c : Cert.KernelIdeal.dot_S1024x4096_S256x4096_S1024x256_1_1_0_0_n_n.contr.Idx) :
    (Cert.KernelIdeal.dot_S1024x4096_S256x4096_S1024x256_1_1_0_0_n_n.rhsIdx i c 1).val = (c ⟨0, by decide⟩).val :=
  Cert.KernelIdeal.dot_S1024x4096_S256x4096_S1024x256_1_1_0_0_n_n.rhsIdx_val_of_single rfl i c

/-- The first product into a zero accumulator, at (p, q): Σ_k x[p,k] · y[q,k]. -/
theorem matmulA_apply (x : FVec Ideal S1024x4096 .bf16) (y : FVec Ideal S256x4096 .bf16) (p : Fin 1024) (q : Fin 256) :
    matmul (F := Ideal) Cert.KernelIdeal.dot_S1024x4096_S256x4096_S1024x256_1_1_0_0_n_n none x y (constant (F := Ideal) S1024x256 .f32 0x00000000#32) (ix2 p q)
      = ∑ k : Fin 4096, x (ix2 p k) * y (ix2 q k) := by
  refine (Ideal.matmul_constant_zero_apply Cert.KernelIdeal.dot_S1024x4096_S256x4096_S1024x256_1_1_0_0_n_n none x y (ix2 p q)).trans ?_
  rw [← Equiv.sum_comp (contrEquiv1 Cert.KernelIdeal.dot_S1024x4096_S256x4096_S1024x256_1_1_0_0_n_n 4096 rfl rfl).symm]
  refine Finset.sum_congr rfl fun k _ => ?_
  have hk := contrEquiv1_symm_val Cert.KernelIdeal.dot_S1024x4096_S256x4096_S1024x256_1_1_0_0_n_n 4096 rfl rfl k
  have el : Cert.KernelIdeal.dot_S1024x4096_S256x4096_S1024x256_1_1_0_0_n_n.lhsIdx (ix2 p q) ((contrEquiv1 Cert.KernelIdeal.dot_S1024x4096_S256x4096_S1024x256_1_1_0_0_n_n 4096 rfl rfl).symm k) = ix2 p k := funext fun a => Fin.ext (by
    match a with
    | ⟨0, _⟩ => exact lhsA_0 _ _
    | ⟨1, _⟩ => exact (lhsA_1 _ _).trans hk)
  have er : Cert.KernelIdeal.dot_S1024x4096_S256x4096_S1024x256_1_1_0_0_n_n.rhsIdx (ix2 p q) ((contrEquiv1 Cert.KernelIdeal.dot_S1024x4096_S256x4096_S1024x256_1_1_0_0_n_n 4096 rfl rfl).symm k) = ix2 q k := funext fun a => Fin.ext (by
    match a with
    | ⟨0, _⟩ => exact rhsA_0 _ _
    | ⟨1, _⟩ => exact (rhsA_1 _ _).trans hk)
  rw [el, er]

/-! ## The second product's operand indices: [2048,256] · [1024,256]ᵀ -/

theorem lhsB_0 (i : S2048x1024.Idx) (c : Cert.KernelIdeal.dot_S2048x256_S1024x256_S2048x1024_1_1_0_0_n_n.contr.Idx) :
    (Cert.KernelIdeal.dot_S2048x256_S1024x256_S2048x1024_1_1_0_0_n_n.lhsIdx i c 0).val = (i 0).val := by
  unfold DotDims.lhsIdx
  rw [dif_neg (show ¬(0 : Fin S2048x256.rank) ∈ Cert.KernelIdeal.dot_S2048x256_S1024x256_S2048x1024_1_1_0_0_n_n.lhsBatch by decide), dif_pos (show (0 : Fin S2048x256.rank) ∈ Cert.KernelIdeal.dot_S2048x256_S1024x256_S2048x1024_1_1_0_0_n_n.lhsNonContracting by decide)]
  rfl
theorem lhsB_1 (i : S2048x1024.Idx) (c : Cert.KernelIdeal.dot_S2048x256_S1024x256_S2048x1024_1_1_0_0_n_n.contr.Idx) :
    (Cert.KernelIdeal.dot_S2048x256_S1024x256_S2048x1024_1_1_0_0_n_n.lhsIdx i c 1).val = (c ⟨0, by decide⟩).val :=
  Cert.KernelIdeal.dot_S2048x256_S1024x256_S2048x1024_1_1_0_0_n_n.lhsIdx_val_of_single rfl i c
theorem rhsB_0 (i : S2048x1024.Idx) (c : Cert.KernelIdeal.dot_S2048x256_S1024x256_S2048x1024_1_1_0_0_n_n.contr.Idx) :
    (Cert.KernelIdeal.dot_S2048x256_S1024x256_S2048x1024_1_1_0_0_n_n.rhsIdx i c 0).val = (i 1).val := by
  unfold DotDims.rhsIdx
  rw [dif_neg (show ¬(0 : Fin S1024x256.rank) ∈ Cert.KernelIdeal.dot_S2048x256_S1024x256_S2048x1024_1_1_0_0_n_n.rhsBatch by decide), dif_pos (show (0 : Fin S1024x256.rank) ∈ Cert.KernelIdeal.dot_S2048x256_S1024x256_S2048x1024_1_1_0_0_n_n.rhsNonContracting by decide)]
  rfl
theorem rhsB_1 (i : S2048x1024.Idx) (c : Cert.KernelIdeal.dot_S2048x256_S1024x256_S2048x1024_1_1_0_0_n_n.contr.Idx) :
    (Cert.KernelIdeal.dot_S2048x256_S1024x256_S2048x1024_1_1_0_0_n_n.rhsIdx i c 1).val = (c ⟨0, by decide⟩).val :=
  Cert.KernelIdeal.dot_S2048x256_S1024x256_S2048x1024_1_1_0_0_n_n.rhsIdx_val_of_single rfl i c

/-- The second product into a zero accumulator, at (p, q): Σ_k x[p,k] · y[q,k]. -/
theorem matmulB_apply (x : FVec Ideal S2048x256 .bf16) (y : FVec Ideal S1024x256 .bf16) (p : Fin 2048) (q : Fin 1024) :
    matmul (F := Ideal) Cert.KernelIdeal.dot_S2048x256_S1024x256_S2048x1024_1_1_0_0_n_n none x y (constant (F := Ideal) S2048x1024 .f32 0x00000000#32) (ix2 p q)
      = ∑ k : Fin 256, x (ix2 p k) * y (ix2 q k) := by
  refine (Ideal.matmul_constant_zero_apply Cert.KernelIdeal.dot_S2048x256_S1024x256_S2048x1024_1_1_0_0_n_n none x y (ix2 p q)).trans ?_
  rw [← Equiv.sum_comp (contrEquiv1 Cert.KernelIdeal.dot_S2048x256_S1024x256_S2048x1024_1_1_0_0_n_n 256 rfl rfl).symm]
  refine Finset.sum_congr rfl fun k _ => ?_
  have hk := contrEquiv1_symm_val Cert.KernelIdeal.dot_S2048x256_S1024x256_S2048x1024_1_1_0_0_n_n 256 rfl rfl k
  have el : Cert.KernelIdeal.dot_S2048x256_S1024x256_S2048x1024_1_1_0_0_n_n.lhsIdx (ix2 p q) ((contrEquiv1 Cert.KernelIdeal.dot_S2048x256_S1024x256_S2048x1024_1_1_0_0_n_n 256 rfl rfl).symm k) = ix2 p k := funext fun a => Fin.ext (by
    match a with
    | ⟨0, _⟩ => exact lhsB_0 _ _
    | ⟨1, _⟩ => exact (lhsB_1 _ _).trans hk)
  have er : Cert.KernelIdeal.dot_S2048x256_S1024x256_S2048x1024_1_1_0_0_n_n.rhsIdx (ix2 p q) ((contrEquiv1 Cert.KernelIdeal.dot_S2048x256_S1024x256_S2048x1024_1_1_0_0_n_n 256 rfl rfl).symm k) = ix2 q k := funext fun a => Fin.ext (by
    match a with
    | ⟨0, _⟩ => exact rhsB_0 _ _
    | ⟨1, _⟩ => exact (rhsB_1 _ _).trans hk)
  rw [el, er]

/-! ## The payloads at an index -/

/-- The gate / up block at (p, q): with g = (Σ_k x[p,k]·Wg[q,k])·ag[q] and u = (Σ_k x[p,k]·Wu[q,k])·au[q], it is
    (g · logistic g) · u. -/
theorem k0_pay1_apply (v0 : Vec Ideal S1024x4096 .bf16) (v2 v4 : Vec Ideal S256x4096 .bf16) (v8 v12 : Vec Ideal S1x256 .f32) (p : Fin 1024) (q : Fin 256) :
    k0_pay1 (F := Ideal) v0 v2 v4 v8 v12 (ix2 p q)
      = (((∑ k : Fin 4096, v0 (ix2 p k) * v2 (ix2 q k)) * v8 (ix2 0 q)) * Ideal.logistic ((∑ k : Fin 4096, v0 (ix2 p k) * v2 (ix2 q k)) * v8 (ix2 0 q)))
        * ((∑ k : Fin 4096, v0 (ix2 p k) * v4 (ix2 q k)) * v12 (ix2 0 q)) := by
  unfold k0_pay1
  simp only [shapeCast_self]
  show ((matmul (F := Ideal) Cert.KernelIdeal.dot_S1024x4096_S256x4096_S1024x256_1_1_0_0_n_n none v0 v2 (constant (F := Ideal) S1024x256 .f32 0x00000000#32) (ix2 p q)
          * broadcastTo S1024x256 v8 broadcasts_S1x256_S1024x256 (ix2 p q))
        * Ideal.logistic (matmul (F := Ideal) Cert.KernelIdeal.dot_S1024x4096_S256x4096_S1024x256_1_1_0_0_n_n none v0 v2 (constant (F := Ideal) S1024x256 .f32 0x00000000#32) (ix2 p q)
          * broadcastTo S1024x256 v8 broadcasts_S1x256_S1024x256 (ix2 p q)))
        * (matmul (F := Ideal) Cert.KernelIdeal.dot_S1024x4096_S256x4096_S1024x256_1_1_0_0_n_n none v0 v4 (constant (F := Ideal) S1024x256 .f32 0x00000000#32) (ix2 p q)
          * broadcastTo S1024x256 v12 broadcasts_S1x256_S1024x256 (ix2 p q)) = _
  rw [matmulA_apply v0 v2 p q, matmulA_apply v0 v4 p q,
    broadcastTo_1b_ab_apply v8 broadcasts_S1x256_S1024x256 p q, broadcastTo_1b_ab_apply v12 broadcasts_S1x256_S1024x256 p q]

/-- The fresh accumulator is zero everywhere. -/
theorem k1_pay1_apply (j : S2048x1024.Idx) : k1_pay1 (F := Ideal) j = 0 := by
  unfold k1_pay1
  simp only [shapeCast_self]
  exact Ideal.ofBits_zero_f32

/-- One accumulation step at (p, q): the accumulator plus the block's partial product Σ_k h[p,k] · Wd[q,k]. -/
theorem k1_pay2_apply (v3 : Vec Ideal S2048x256 .bf16) (v5 : Vec Ideal S1024x256 .bf16) (v7 : Vec Ideal S2048x1024 .f32) (p : Fin 2048) (q : Fin 1024) :
    k1_pay2 (F := Ideal) v3 v5 v7 (ix2 p q) = v7 (ix2 p q) + ∑ k : Fin 256, v3 (ix2 p k) * v5 (ix2 q k) := by
  unfold k1_pay2
  simp only [shapeCast_self]
  show v7 (ix2 p q) + matmul (F := Ideal) Cert.KernelIdeal.dot_S2048x256_S1024x256_S2048x1024_1_1_0_0_n_n none v3 v5 (constant (F := Ideal) S2048x1024 .f32 0x00000000#32) (ix2 p q) = _
  rw [matmulB_apply v3 v5 p q]

/-- The final scaling at (p, q): the accumulator times the per-column scale. -/
theorem k1_pay3_apply (v16 : Vec Ideal S2048x1024 .f32) (v17 : Vec Ideal S1x1024 .f32) (p : Fin 2048) (q : Fin 1024) :
    k1_pay3 (F := Ideal) v16 v17 (ix2 p q) = v16 (ix2 p q) * v17 (ix2 0 q) := by
  unfold k1_pay3
  simp only [shapeCast_self]
  show v16 (ix2 p q) * broadcastTo S2048x1024 v17 broadcasts_S1x1024_S2048x1024 (ix2 p q) = _
  rw [broadcastTo_1b_ab_apply v17 broadcasts_S1x1024_S2048x1024 p q]

end Cert.KernelIdeal.PayValue
-- ==== Proof.Val.Spec.lean ====
/-
  The mathematics both programs compute, index by index on the extended reals.

  A row r of the flattened activations is the pair (b, s) with r = 2048·b + s.  For a weight matrix W (one row per
  output channel) and a per-channel scale a, the scaled projection is
      proj x W a (b,s,i) = (Σ_k x[b,s,k] · W[i,k]) · a[i].
  The hidden activation is SwiGLU with silu g = g · logistic g:
      hid (b,s,i) = (gate · logistic gate) · up,   gate = proj x Wg ag,  up = proj x Wu au,
  and the result is the down projection, scaled per output channel:
      G (b,s,h) = (Σ_i hid (b,s,i) · Wd[h,i]) · ad[h].
  The kernel contracts the 11008 intermediate channels in 43 blocks of 256, adding each block's partial product to an
  accumulator that starts at zero; `blockFold` is that accumulation and `blockFold_eq_sum` says it is the whole sum
  (addition on the extended reals is associative and commutative, so no finiteness is needed).
-/
import Idealize.ShloMosaic.PureOps.Ideal
import Idealize.ShloMosaic.Lib.ValueIdx

noncomputable section

open scoped BigOperators

namespace Cert.Spec

open Idealize.ShloMosaic Idealize.ShloMosaic.ValueIdx

/-- The activations' shape [4, 2048, 4096] (also the result's). -/
abbrev SX : Shape := ⟨3, ![4, 2048, 4096]⟩
/-- The gate / up weights' shape [11008, 4096]. -/
abbrev SWI : Shape := ⟨2, ![11008, 4096]⟩
/-- The down weights' shape [4096, 11008]. -/
abbrev SWD : Shape := ⟨2, ![4096, 11008]⟩
/-- A per-intermediate-channel scale [11008]. -/
abbrev SAI : Shape := ⟨1, ![11008]⟩
/-- The per-output-channel scale [4096]. -/
abbrev SAH : Shape := ⟨1, ![4096]⟩

/-- The scaled projection (Σ_k x[b,s,k] · W[i,k]) · a[i]. -/
def proj (x : SX.Idx → EReal) (W : SWI.Idx → EReal) (a : SAI.Idx → EReal) (b : Fin 4) (s : Fin 2048) (i : Fin 11008) : EReal :=
  (∑ k : Fin 4096, x (ix3 b s k) * W (ix2 i k)) * a (ix1 i)

/-- SwiGLU's hidden activation (gate · logistic gate) · up. -/
def hid (x : SX.Idx → EReal) (Wg Wu : SWI.Idx → EReal) (ag au : SAI.Idx → EReal) (b : Fin 4) (s : Fin 2048) (i : Fin 11008) : EReal :=
  (proj x Wg ag b s i * Ideal.logistic (proj x Wg ag b s i)) * proj x Wu au b s i

/-- The result at coordinates (b, s, h). -/
def Gat (x : SX.Idx → EReal) (Wg Wu : SWI.Idx → EReal) (Wd : SWD.Idx → EReal) (ag au : SAI.Idx → EReal) (ad : SAH.Idx → EReal)
    (b : Fin 4) (s : Fin 2048) (h : Fin 4096) : EReal :=
  (∑ i : Fin 11008, hid x Wg Wu ag au b s i * Wd (ix2 h i)) * ad (ix1 h)

/-- The result array. -/
def G (x : SX.Idx → EReal) (Wg Wu : SWI.Idx → EReal) (Wd : SWD.Idx → EReal) (ag au : SAI.Idx → EReal) (ad : SAH.Idx → EReal) :
    SX.Idx → EReal := fun j => Gat x Wg Wu Wd ag au ad (j 0) (j 1) (j 2)

theorem G_ix3 (x : SX.Idx → EReal) (Wg Wu : SWI.Idx → EReal) (Wd : SWD.Idx → EReal) (ag au : SAI.Idx → EReal) (ad : SAH.Idx → EReal)
    (b : Fin 4) (s : Fin 2048) (h : Fin 4096) : G x Wg Wu Wd ag au ad (ix3 b s h) = Gat x Wg Wu Wd ag au ad b s h := rfl

/-- The accumulation over the first `n` blocks of 256 channels: start at zero, add each block's partial sum in order. -/
def blockFold (f : Fin 11008 → EReal) : (n : ℕ) → n ≤ 43 → EReal
  | 0, _ => 0
  | n + 1, hn => blockFold f n (Nat.le_of_succ_le hn) + ∑ j : Fin 256, f ⟨256 * n + j.val, by have := j.isLt; omega⟩

/-! ## The same mathematics over the flattened rows

The kernel works on the activations flattened to 8192 rows (row r = 2048·b + s) and on the scales as 1 × n rows. -/

/-- The flattened activations [8192, 4096] (also the flattened result). -/
abbrev SX2 : Shape := ⟨2, ![8192, 4096]⟩
/-- A per-intermediate-channel scale as a row [1, 11008]. -/
abbrev SA2I : Shape := ⟨2, ![1, 11008]⟩
/-- The per-output-channel scale as a row [1, 4096]. -/
abbrev SA2H : Shape := ⟨2, ![1, 4096]⟩
/-- The hidden activation [8192, 11008]. -/
abbrev SH2 : Shape := ⟨2, ![8192, 11008]⟩

/-- The scaled projection at row r and channel i. -/
def proj2 (x2 : SX2.Idx → EReal) (W : SWI.Idx → EReal) (a2 : SA2I.Idx → EReal) (r : Fin 8192) (i : Fin 11008) : EReal :=
  (∑ k : Fin 4096, x2 (ix2 r k) * W (ix2 i k)) * a2 (ix2 0 i)

/-- The hidden activation at row r and channel i. -/
def hid2 (x2 : SX2.Idx → EReal) (Wg Wu : SWI.Idx → EReal) (ag2 au2 : SA2I.Idx → EReal) (r : Fin 8192) (i : Fin 11008) : EReal :=
  (proj2 x2 Wg ag2 r i * Ideal.logistic (proj2 x2 Wg ag2 r i)) * proj2 x2 Wu au2 r i

/-- The hidden activation as an array: what the first kernel writes. -/
def H2 (x2 : SX2.Idx → EReal) (Wg Wu : SWI.Idx → EReal) (ag2 au2 : SA2I.Idx → EReal) : SH2.Idx → EReal :=
  fun j => hid2 x2 Wg Wu ag2 au2 (j 0) (j 1)

/-- The down projection of a hidden array at row r and output channel h, the 11008 channels contracted in 43 blocks of
    256 accumulated from zero, then scaled. -/
def out2at (H : SH2.Idx → EReal) (Wd : SWD.Idx → EReal) (ad2 : SA2H.Idx → EReal) (r : Fin 8192) (h : Fin 4096) : EReal :=
  blockFold (fun i => H (ix2 r i) * Wd (ix2 h i)) 43 (le_refl 43) * ad2 (ix2 0 h)

/-- The flattened result: what the second kernel writes. -/
def OUT2 (H : SH2.Idx → EReal) (Wd : SWD.Idx → EReal) (ad2 : SA2H.Idx → EReal) : SX2.Idx → EReal :=
  fun j => out2at H Wd ad2 (j 0) (j 1)

end Cert.Spec

end
-- ==== Proof.Val.Blk0.lean ====
/-
  From the blocks of the fused gate / up / SiLU kernel to the hidden-activation array.

  The kernel runs on the grid 8 × 43; point t has coordinates (t / 43, t % 43).  There it reads rows
  1024·(t / 43) … of the flattened activations, rows 256·(t % 43) … of the gate and the up weights, lanes 256·(t % 43) … of
  the two scale rows, and writes block (t / 43, t % 43) of the hidden activation.  Read at one element, the block the body
  leaves is the specification's hidden activation at row 1024·(t / 43) + p and channel 256·(t % 43) + q; every point writes
  its block back and the 8 × 43 blocks tile the [8192, 11008] array, so the array ends holding the specification's H2 of
  the five input arrays, which are never written.
-/
import proofs.«164616_j63883343560961_1_alg».proof.Proof.KI.R0
import proofs.«164616_j63883343560961_1_alg».proof.Proof.Val.Pay
import proofs.«164616_j63883343560961_1_alg».proof.Proof.Val.Spec
import Idealize.ShloMosaic.Lib.Pipeline.Value
import Idealize.ShloMosaic.Lib.ValueIdx

set_option maxRecDepth 16384

noncomputable section

open scoped BigOperators

namespace Cert.KernelIdeal.Blk0Value

open Cert.KernelIdeal Cert.KernelIdeal.Gen Cert.KernelIdeal.Frm Cert.KernelIdeal.PayValue Cert.Spec
open Idealize.ShloMosaic Idealize.ShloMosaic.TcCoe Idealize.ShloMosaic.ValueIdx Idealize.SL.Sem
open Idealize.ShloMosaic.Pipeline (Dat)

/-! ## The input arrays are never written -/

section Inputs

variable {F : FTy → Type} [FloatOps F]
variable (V : (c : Dev nD) → (b : Ref sig .tc) → Buf (Elt F) ((c : Thread nD τ).loc b))

/-- An input window's array is after the region what the region found. -/
theorem kept0 (c : Dev nD) (w : Fin cfg0.W) (hin : (cfg0.win w).isOut = false) :
    (dat0 (F := F) V c).arrAt w cfg0.N = V c (Pipeline.arrRef spec0 w) :=
  ((dat0 (F := F) V c).arrAt_in w hin cfg0.N).trans (A_eq0 V c w)

/-- The activations. -/
theorem final0_0 (c : Dev nD) : (dat0 (F := F) V c).arrAt 0 cfg0.N = V c (Pipeline.arrRef spec0 0) := kept0 V c 0 rfl
/-- The gate weights. -/
theorem final0_1 (c : Dev nD) : (dat0 (F := F) V c).arrAt 1 cfg0.N = V c (Pipeline.arrRef spec0 1) := kept0 V c 1 rfl
/-- The up weights. -/
theorem final0_2 (c : Dev nD) : (dat0 (F := F) V c).arrAt 2 cfg0.N = V c (Pipeline.arrRef spec0 2) := kept0 V c 2 rfl
/-- The gate scale. -/
theorem final0_3 (c : Dev nD) : (dat0 (F := F) V c).arrAt 3 cfg0.N = V c (Pipeline.arrRef spec0 3) := kept0 V c 3 rfl
/-- The up scale. -/
theorem final0_4 (c : Dev nD) : (dat0 (F := F) V c).arrAt 4 cfg0.N = V c (Pipeline.arrRef spec0 4) := kept0 V c 4 rfl

end Inputs

variable (V : (c : Dev nD) → (b : Ref sig .tc) → Buf (Elt Ideal) ((c : Thread nD τ).loc b))

/-! ## The grid and the index maps -/

/-- The two zero offsets of a whole-buffer access, as the constant function. -/
theorem hz : (![0, 0] : Fin 2 → Nat) = fun _ => 0 := funext fun a => by fin_cases a <;> rfl

/-- The grid has 8 · 43 points. -/
theorem N_eq : cfg0.N = 344 := by decide

/-- The index maps over the grid: the activations' block moves with t / 43, the weights' and the scales' with t % 43, and
    the output block is (t / 43, t % 43). -/
theorem idx_facts : ∀ t : Fin cfg0.N,
      win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = 0 ∧ win0_4.index t (1 : Fin 2) = t.val % 43
    ∧ win0_5.index t (0 : Fin 2) = t.val / 43 ∧ win0_5.index t (1 : Fin 2) = t.val % 43 :=
  (by decide +kernel : ∀ t : Fin grid0.N, _)

/-- Row 1024·(t / 43) + p of the flattened activations: row p of the block point t works on. -/
def row (t : Fin cfg0.N) (p : Fin 1024) : Fin 8192 :=
  ⟨1024 * (t.val / 43) + p.val, by have ht : t.val < 344 := N_eq ▸ t.isLt; have := p.isLt; omega⟩

/-- Channel 256·(t % 43) + q of the 11008 intermediate ones: channel q of the block point t works on. -/
def chan (t : Fin cfg0.N) (q : Fin 256) : Fin 11008 :=
  ⟨256 * (t.val % 43) + q.val, by have := q.isLt; omega⟩

theorem row_val (t : Fin cfg0.N) (p : Fin 1024) : (row t p).val = 1024 * (t.val / 43) + p.val := rfl
theorem chan_val (t : Fin cfg0.N) (q : Fin 256) : (chan t q).val = 256 * (t.val % 43) + q.val := rfl

/-! ## Each input block read off its array -/

/-- The activations' block at point t, at (p, k): row 1024·(t / 43) + p of the array. -/
theorem x_blk (c : Dev nD) (t : Fin cfg0.N) (p : Fin 1024) (k : Fin 4096) :
    (iblk0 V c 0 t : Vec Ideal S1024x4096 .bf16) (ix2 p k) = (V c main_v1 : SX2.Idx → EReal) (ix2 (row t p) k) := by
  obtain ⟨e0, e1, -⟩ := idx_facts t
  show V c main_v1 (((cfg0.win 0).blk t).view.emb (ix2 p k)) = V c main_v1 (ix2 (row t p) k)
  refine congrArg (V c main_v1) (funext fun a => Fin.ext ?_)
  match a with
  | ⟨0, _⟩ => show win0_0.index t (0 : Fin 2) * 1024 + 1 * p.val = 1024 * (t.val / 43) + p.val; omega
  | ⟨1, _⟩ => show win0_0.index t (1 : Fin 2) * 4096 + 1 * k.val = k.val; omega

/-- The gate weights' block at point t, at (q, k): row 256·(t % 43) + q of the array. -/
theorem wg_blk (c : Dev nD) (t : Fin cfg0.N) (q : Fin 256) (k : Fin 4096) :
    (iblk0 V c 1 t : Vec Ideal S256x4096 .bf16) (ix2 q k) = (V c main_v2 : SWI.Idx → EReal) (ix2 (chan t q) k) := by
  obtain ⟨-, -, e0, e1, -⟩ := idx_facts t
  show V c main_v2 (((cfg0.win 1).blk t).view.emb (ix2 q k)) = V c main_v2 (ix2 (chan t q) k)
  refine congrArg (V c main_v2) (funext fun a => Fin.ext ?_)
  match a with
  | ⟨0, _⟩ => show win0_1.index t (0 : Fin 2) * 256 + 1 * q.val = 256 * (t.val % 43) + q.val; omega
  | ⟨1, _⟩ => show win0_1.index t (1 : Fin 2) * 4096 + 1 * k.val = k.val; omega

/-- The up weights' block at point t, at (q, k): row 256·(t % 43) + q of the array. -/
theorem wu_blk (c : Dev nD) (t : Fin cfg0.N) (q : Fin 256) (k : Fin 4096) :
    (iblk0 V c 2 t : Vec Ideal S256x4096 .bf16) (ix2 q k) = (V c main_v3 : SWI.Idx → EReal) (ix2 (chan t q) k) := by
  obtain ⟨-, -, -, -, e0, e1, -⟩ := idx_facts t
  show V c main_v3 (((cfg0.win 2).blk t).view.emb (ix2 q k)) = V c main_v3 (ix2 (chan t q) k)
  refine congrArg (V c main_v3) (funext fun a => Fin.ext ?_)
  match a with
  | ⟨0, _⟩ => show win0_2.index t (0 : Fin 2) * 256 + 1 * q.val = 256 * (t.val % 43) + q.val; omega
  | ⟨1, _⟩ => show win0_2.index t (1 : Fin 2) * 4096 + 1 * k.val = k.val; omega

/-- The gate scale's block at point t, at (0, q): lane 256·(t % 43) + q of the scale row. -/
theorem ag_blk (c : Dev nD) (t : Fin cfg0.N) (q : Fin 256) :
    (iblk0 V c 3 t : Vec Ideal S1x256 .f32) (ix2 0 q) = (V c main_v5 : SA2I.Idx → EReal) (ix2 0 (chan t q)) := by
  obtain ⟨-, -, -, -, -, -, e0, e1, -⟩ := idx_facts t
  show V c main_v5 (((cfg0.win 3).blk t).view.emb (ix2 0 q)) = V c main_v5 (ix2 0 (chan t q))
  refine congrArg (V c main_v5) (funext fun a => Fin.ext ?_)
  match a with
  | ⟨0, _⟩ => show win0_3.index t (0 : Fin 2) * 1 + 1 * 0 = 0; omega
  | ⟨1, _⟩ => show win0_3.index t (1 : Fin 2) * 256 + 1 * q.val = 256 * (t.val % 43) + q.val; omega

/-- The up scale's block at point t, at (0, q): lane 256·(t % 43) + q of the scale row. -/
theorem au_blk (c : Dev nD) (t : Fin cfg0.N) (q : Fin 256) :
    (iblk0 V c 4 t : Vec Ideal S1x256 .f32) (ix2 0 q) = (V c main_v6 : SA2I.Idx → EReal) (ix2 0 (chan t q)) := by
  obtain ⟨-, -, -, -, -, -, -, -, e0, e1, -⟩ := idx_facts t
  show V c main_v6 (((cfg0.win 4).blk t).view.emb (ix2 0 q)) = V c main_v6 (ix2 0 (chan t q))
  refine congrArg (V c main_v6) (funext fun a => Fin.ext ?_)
  match a with
  | ⟨0, _⟩ => show win0_4.index t (0 : Fin 2) * 1 + 1 * 0 = 0; omega
  | ⟨1, _⟩ => show win0_4.index t (1 : Fin 2) * 256 + 1 * q.val = 256 * (t.val % 43) + q.val; omega

/-- Where element (p, q) of the output block at point t sits in the array: row 1024·(t / 43) + p, channel 256·(t % 43) + q. -/
theorem h_blk_emb (t : Fin cfg0.N) (p : Fin 1024) (q : Fin 256) :
    ((cfg0.win 5).blk t).view.emb (ix2 p q) = (ix2 (row t p) (chan t q) : SH2.Idx) := by
  obtain ⟨-, -, -, -, -, -, -, -, -, -, e0, e1⟩ := idx_facts t
  refine funext fun a => Fin.ext ?_
  match a with
  | ⟨0, _⟩ => show win0_5.index t (0 : Fin 2) * 1024 + 1 * p.val = 1024 * (t.val / 43) + p.val; omega
  | ⟨1, _⟩ => show win0_5.index t (1 : Fin 2) * 256 + 1 * q.val = 256 * (t.val % 43) + q.val; omega

/-! ## What a point writes back -/

/-- The hidden activation the specification names, of the five arrays as the region finds them. -/
abbrev Hid (c : Dev nD) : SH2.Idx → EReal :=
  H2 (V c main_v1) (V c main_v2) (V c main_v3) (V c main_v5) (V c main_v6)

/-- The body's block at point t, at (p, q), is the specification's hidden activation at row 1024·(t / 43) + p and
    channel 256·(t % 43) + q. -/
theorem pay_at (c : Dev nD) (t : Fin cfg0.N) (p : Fin 1024) (q : Fin 256) :
    k0_pay1 (F := Ideal) (iblk0 V c 0 t) (iblk0 V c 1 t) (iblk0 V c 2 t) (iblk0 V c 3 t) (iblk0 V c 4 t) (ix2 p q)
      = hid2 (V c main_v1) (V c main_v2) (V c main_v3) (V c main_v5) (V c main_v6) (row t p) (chan t q) := by
  rw [k0_pay1_apply]
  simp only [x_blk V c t p, wg_blk V c t q, wu_blk V c t q, ag_blk V c t q, au_blk V c t q]
  rfl

/-- WHAT POINT t WRITES BACK is block t of the hidden-activation array. -/
theorem flushed_eq (c : Dev nD) (t : Fin cfg0.N) :
    (dat0 (F := Ideal) V c).flushed 5 t = ((cfg0.win 5).blk t).view.read (Elt Ideal) (Hid V c) := by
  show (cfg0.win 5).cut (grid0.coords t) ((dat0 (F := Ideal) V c).after 5 t) = _
  rw [after0_5]
  unfold out0_5
  rw [View.canon_unit_zero hz]
  simp only [View.ld_unit_zero (S := S1024x4096) hz, View.ld_unit_zero (S := S256x4096) hz, View.ld_unit_zero (S := S1x256) hz]
  funext j
  obtain ⟨p, q, rfl⟩ : ∃ (p : Fin 1024) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = Hid V c (((cfg0.win 5).blk t).view.emb (ix2 p q))
  rw [pay_at V c t p q, h_blk_emb t p q]
  rfl

/-! ## The blocks tile the array -/

/-- An index of the array is in point t's block iff each coordinate is in the block's range on its axis. -/
theorem mem_blk (t : Fin cfg0.N) (i : SH2.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v8).slice (win0_5.rect t)).set ↔ _
  rw [View.set_slice_whole, Rect.mem_set_unit]
  exact Iff.rfl

/-- Every element (r, i) of the array is in the block of the point 43·(r / 1024) + i / 256, which writes it back. -/
theorem cover (i : SH2.Idx) : ∃ t : Fin cfg0.N, (cfg0.win 5).flush t = true ∧ i ∈ ((cfg0.win 5).blk t).view.set := by
  have h0 : (i 0).val < 8192 := (i 0).isLt
  have h1 : (i 1).val < 11008 := (i 1).isLt
  let t : Fin cfg0.N := ⟨43 * ((i 0).val / 1024) + (i 1).val / 256, by rw [N_eq]; omega⟩
  have ht : t.val = 43 * ((i 0).val / 1024) + (i 1).val / 256 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-! ## The arrays after the region -/

/-- THE HIDDEN-ACTIVATION ARRAY after the region is the specification's H2 of the five input arrays. -/
theorem final0_5 (c : Dev nD) :
    (dat0 (F := Ideal) V c).arrAt 5 cfg0.N = Cert.Spec.H2 (V c main_v1) (V c main_v2) (V c main_v3) (V c main_v5) (V c main_v6) :=
  (dat0 (F := Ideal) V c).arrAt_eq_of_cover 5 (Hid V c) (fun t _ => flushed_eq V c t) cover

end Cert.KernelIdeal.Blk0Value
-- ==== Proof.Val.Blk1.lean ====
/-
  The blocks of the down-projection kernel read off their arrays, and where its output blocks sit.

  The kernel runs on the grid 4 × 4 × 43; point t has coordinates (t / 172, (t / 43) % 4, t % 43), the last axis running over
  the 43 blocks of 256 contracted channels.  At point t it reads rows 2048·(t / 172) … and channels 256·(t % 43) … of the hidden
  activation, rows 1024·((t / 43) % 4) … and the same channels of the down weights, lanes 1024·((t / 43) % 4) … of the scale row,
  and its output block is (t / 172, (t / 43) % 4) of the [8192, 4096] result, written back at the last point of each run of 43
  and only there.  The 4 × 4 output blocks tile the result, and the three input arrays are never written.
-/
import proofs.«164616_j63883343560961_1_alg».proof.Proof.KI.R1
import proofs.«164616_j63883343560961_1_alg».proof.Proof.Val.Spec
import Idealize.ShloMosaic.Lib.Pipeline.Value
import Idealize.ShloMosaic.Lib.ValueIdx

set_option maxRecDepth 16384

noncomputable section

open scoped BigOperators

namespace Cert.KernelIdeal.Blk1Value

open Cert.KernelIdeal Cert.KernelIdeal.Gen Cert.KernelIdeal.Frm Cert.Spec
open Idealize.ShloMosaic Idealize.ShloMosaic.TcCoe Idealize.ShloMosaic.ValueIdx Idealize.SL.Sem
open Idealize.ShloMosaic.Pipeline (Dat)

/-! ## The input arrays are never written -/

section Inputs

variable {F : FTy → Type} [FloatOps F]
variable (V : (c : Dev nD) → (b : Ref sig .tc) → Buf (Elt F) ((c : Thread nD τ).loc b))

/-- An input window's array is after the region what the region found. -/
theorem kept1 (c : Dev nD) (w : Fin cfg1.W) (hin : (cfg1.win w).isOut = false) :
    (dat1 (F := F) V c).arrAt w cfg1.N = V c (Pipeline.arrRef spec1 w) :=
  ((dat1 (F := F) V c).arrAt_in w hin cfg1.N).trans (A_eq1 V c w)

/-- The hidden activation. -/
theorem final1_0 (c : Dev nD) : (dat1 (F := F) V c).arrAt 0 cfg1.N = V c (Pipeline.arrRef spec1 0) := kept1 V c 0 rfl
/-- The down weights. -/
theorem final1_1 (c : Dev nD) : (dat1 (F := F) V c).arrAt 1 cfg1.N = V c (Pipeline.arrRef spec1 1) := kept1 V c 1 rfl
/-- The output scale. -/
theorem final1_2 (c : Dev nD) : (dat1 (F := F) V c).arrAt 2 cfg1.N = V c (Pipeline.arrRef spec1 2) := kept1 V c 2 rfl

end Inputs

variable (V : (c : Dev nD) → (b : Ref sig .tc) → Buf (Elt Ideal) ((c : Thread nD τ).loc b))

/-! ## The grid and the index maps -/

/-- The grid has 4 · 4 · 43 points. -/
theorem N1_eq : cfg1.N = 688 := by decide

/-- The index maps over the grid: the hidden activation's block is (t / 172, t % 43), the down weights' ((t / 43) % 4, t % 43),
    the scale's (0, (t / 43) % 4), and the output block is (t / 172, (t / 43) % 4). -/
theorem idx_facts1 : ∀ t : Fin cfg1.N,
      win1_0.index t (0 : Fin 2) = t.val / 172 ∧ win1_0.index t (1 : Fin 2) = t.val % 43
    ∧ win1_1.index t (0 : Fin 2) = (t.val / 43) % 4 ∧ win1_1.index t (1 : Fin 2) = t.val % 43
    ∧ win1_2.index t (0 : Fin 2) = 0 ∧ win1_2.index t (1 : Fin 2) = (t.val / 43) % 4
    ∧ win1_3.index t (0 : Fin 2) = t.val / 172 ∧ win1_3.index t (1 : Fin 2) = (t.val / 43) % 4 :=
  (by decide +kernel : ∀ t : Fin grid1.N, _)

/-- Row 2048·(t / 172) + p of the flattened rows: row p of the block point t works on. -/
def row1 (t : Fin cfg1.N) (p : Fin 2048) : Fin 8192 :=
  ⟨2048 * (t.val / 172) + p.val, by have ht : t.val < 688 := N1_eq ▸ t.isLt; have := p.isLt; omega⟩

/-- Output channel 1024·((t / 43) % 4) + q of the 4096: column q of the block point t works on. -/
def col1 (t : Fin cfg1.N) (q : Fin 1024) : Fin 4096 :=
  ⟨1024 * ((t.val / 43) % 4) + q.val, by have := q.isLt; omega⟩

/-- Contracted channel 256·(t % 43) + kk of the 11008: channel kk of the block point t contracts. -/
def chan1 (t : Fin cfg1.N) (kk : Fin 256) : Fin 11008 :=
  ⟨256 * (t.val % 43) + kk.val, by have := kk.isLt; omega⟩

theorem row1_val (t : Fin cfg1.N) (p : Fin 2048) : (row1 t p).val = 2048 * (t.val / 172) + p.val := rfl
theorem col1_val (t : Fin cfg1.N) (q : Fin 1024) : (col1 t q).val = 1024 * ((t.val / 43) % 4) + q.val := rfl
theorem chan1_val (t : Fin cfg1.N) (kk : Fin 256) : (chan1 t kk).val = 256 * (t.val % 43) + kk.val := rfl

/-! ## Each input block read off its array -/

/-- The hidden activation's block at point t, at (p, kk): row 2048·(t / 172) + p, channel 256·(t % 43) + kk of the array. -/
theorem h_blk (c : Dev nD) (t : Fin cfg1.N) (p : Fin 2048) (kk : Fin 256) :
    (iblk1 V c 0 t : Vec Ideal S2048x256 .bf16) (ix2 p kk) = (V c main_v8 : SH2.Idx → EReal) (ix2 (row1 t p) (chan1 t kk)) := by
  obtain ⟨e0, e1, -⟩ := idx_facts1 t
  show V c main_v8 (((cfg1.win 0).blk t).view.emb (ix2 p kk)) = V c main_v8 (ix2 (row1 t p) (chan1 t kk))
  refine congrArg (V c main_v8) (funext fun a => Fin.ext ?_)
  match a with
  | ⟨0, _⟩ => show win1_0.index t (0 : Fin 2) * 2048 + 1 * p.val = 2048 * (t.val / 172) + p.val; omega
  | ⟨1, _⟩ => show win1_0.index t (1 : Fin 2) * 256 + 1 * kk.val = 256 * (t.val % 43) + kk.val; omega

/-- The down weights' block at point t, at (q, kk): row 1024·((t / 43) % 4) + q, channel 256·(t % 43) + kk of the array. -/
theorem wd_blk (c : Dev nD) (t : Fin cfg1.N) (q : Fin 1024) (kk : Fin 256) :
    (iblk1 V c 1 t : Vec Ideal S1024x256 .bf16) (ix2 q kk) = (V c main_v4 : SWD.Idx → EReal) (ix2 (col1 t q) (chan1 t kk)) := by
  obtain ⟨-, -, e0, e1, -⟩ := idx_facts1 t
  show V c main_v4 (((cfg1.win 1).blk t).view.emb (ix2 q kk)) = V c main_v4 (ix2 (col1 t q) (chan1 t kk))
  refine congrArg (V c main_v4) (funext fun a => Fin.ext ?_)
  match a with
  | ⟨0, _⟩ => show win1_1.index t (0 : Fin 2) * 1024 + 1 * q.val = 1024 * ((t.val / 43) % 4) + q.val; omega
  | ⟨1, _⟩ => show win1_1.index t (1 : Fin 2) * 256 + 1 * kk.val = 256 * (t.val % 43) + kk.val; omega

/-- The output scale's block at point t, at (0, q): lane 1024·((t / 43) % 4) + q of the scale row. -/
theorem ad_blk (c : Dev nD) (t : Fin cfg1.N) (q : Fin 1024) :
    (iblk1 V c 2 t : Vec Ideal S1x1024 .f32) (ix2 0 q) = (V c main_v7 : SA2H.Idx → EReal) (ix2 0 (col1 t q)) := by
  obtain ⟨-, -, -, -, e0, e1, -⟩ := idx_facts1 t
  show V c main_v7 (((cfg1.win 2).blk t).view.emb (ix2 0 q)) = V c main_v7 (ix2 0 (col1 t q))
  refine congrArg (V c main_v7) (funext fun a => Fin.ext ?_)
  match a with
  | ⟨0, _⟩ => show win1_2.index t (0 : Fin 2) * 1 + 1 * 0 = 0; omega
  | ⟨1, _⟩ => show win1_2.index t (1 : Fin 2) * 1024 + 1 * q.val = 1024 * ((t.val / 43) % 4) + q.val; omega

/-! ## The output blocks -/

/-- Where element (p, q) of the output block at point t sits in the result: row 2048·(t / 172) + p, column
    1024·((t / 43) % 4) + q. -/
theorem out_blk_emb (t : Fin cfg1.N) (p : Fin 2048) (q : Fin 1024) :
    ((cfg1.win 3).blk t).view.emb (ix2 p q) = (ix2 (row1 t p) (col1 t q) : SX2.Idx) := by
  obtain ⟨-, -, -, -, -, -, e0, e1⟩ := idx_facts1 t
  refine funext fun a => Fin.ext ?_
  match a with
  | ⟨0, _⟩ => show win1_3.index t (0 : Fin 2) * 2048 + 1 * p.val = 2048 * (t.val / 172) + p.val; omega
  | ⟨1, _⟩ => show win1_3.index t (1 : Fin 2) * 1024 + 1 * q.val = 1024 * ((t.val / 43) % 4) + q.val; omega

/-- An index of the result is in point t's block iff each coordinate is in the block's range on its axis. -/
theorem mem_blk1 (t : Fin cfg1.N) (i : SX2.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v9).slice (win1_3.rect t)).set ↔ _
  rw [View.set_slice_whole, Rect.mem_set_unit]
  exact Iff.rfl

/-- Every element (r, h) of the result is in the block of the point 172·(r / 2048) + 43·(h / 1024) + 42, the last of its run,
    which writes the block back. -/
theorem cover1 (i : SX2.Idx) : ∃ t : Fin cfg1.N, (cfg1.win 3).flush t = true ∧ i ∈ ((cfg1.win 3).blk t).view.set := by
  have h0 : (i 0).val < 8192 := (i 0).isLt
  have h1 : (i 1).val < 4096 := (i 1).isLt
  let t : Fin cfg1.N := ⟨172 * ((i 0).val / 2048) + 43 * ((i 1).val / 1024) + 42, by rw [N1_eq]; omega⟩
  have ht : t.val = 172 * ((i 0).val / 2048) + 43 * ((i 1).val / 1024) + 42 := rfl
  obtain ⟨-, -, -, -, -, -, e0, e1⟩ := idx_facts1 t
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

end Cert.KernelIdeal.Blk1Value
-- ==== Proof.Val.Acc1.lean ====
/-
  The down-projection kernel's result array, as the specification's flattened result.

  The kernel runs on the grid 4 × 4 × 43, the last axis over the 43 blocks of 256 contracted channels, and keeps a
  2048 × 1024 accumulator across the 43 points of a run.  Each of the body's three control cases leaves in the accumulator
  "what was there (zero at the first point of a run) plus this block's partial product", and the last one stores
  accumulator × scale.  So after point t the accumulator holds, at (p, q), the sum of the first t % 43 + 1 blocks of products
  of row 2048·(t / 172) + p of the hidden activation with row 1024·((t / 43) % 4) + q of the down weights, accumulated block
  by block from zero: by induction on the point.  The last point of each run writes its block back; those 4 × 4 blocks
  tile the result, which therefore ends holding the specification's flattened result.
-/
import proofs.«164616_j63883343560961_1_alg».proof.Proof.KI.R1
import proofs.«164616_j63883343560961_1_alg».proof.Proof.Val.Pay
import proofs.«164616_j63883343560961_1_alg».proof.Proof.Val.Spec
import proofs.«164616_j63883343560961_1_alg».proof.Proof.Val.Blk1
import Idealize.ShloMosaic.Lib.Pipeline.Value
import Idealize.ShloMosaic.Lib.ValueIdx

set_option maxRecDepth 16384

noncomputable section

open scoped BigOperators

namespace Cert.KernelIdeal.Acc1Value

open Cert.KernelIdeal Cert.KernelIdeal.Gen Cert.KernelIdeal.Frm Cert.KernelIdeal.PayValue Cert.KernelIdeal.Blk1Value Cert.Spec
open Idealize.ShloMosaic Idealize.ShloMosaic.TcCoe Idealize.ShloMosaic.ValueIdx Idealize.SL.Sem Idealize.ShloMosaic.Tactic
open Idealize.ShloMosaic.Pipeline (Dat)

/-! ## What each control case leaves, as payloads of the blocks -/

section Pieces
variable {F : FTy → Type} [FloatOps F]

/-- The two zero offsets of a whole-buffer access, as the constant function. -/
theorem hz : (![0, 0] : Fin 2 → Nat) = fun _ => 0 := funext fun a => by fin_cases a <;> rfl

/-- The first point of a run: the accumulator is reset to zero, read back, and the block product added. -/
theorem sout_A (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x256 .bf16) (x1 : Vec F S1024x256 .bf16) (x2 : Vec F S1x1024 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S2048x1024) hz, View.readCov_unit_zero (S := S2048x1024) _ hz]
  simp only [View.readAt_eq_ld, harg3.read_unread, harg4.read_unread, harg5.read_unread, harg7.read_unread, View.ld_unit_zero (S := S2048x256) hz, View.ld_unit_zero (S := S1024x256) hz, View.ld_unit_zero (S := S1x1024) hz, View.ld_unit_zero (S := S2048x1024) hz]

/-- A middle point: the block product is added to what the point before left. -/
theorem sout_B (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x256 .bf16) (x1 : Vec F S1024x256 .bf16) (x2 : Vec F S1x1024 .f32) (xs : Vec F S2048x1024 .f32) :
    sout1_B c i arg3 harg3 arg4 harg4 arg5 harg5 arg6 harg6 arg7 harg7 hc0 hc1 x0 x1 x2 xs = k1_pay2 x0 x1 xs := by
  unfold sout1_B
  rw [View.read_writes_eq_canon _ _ _ (scover1_B c i arg3 harg3 arg4 harg4 arg5 harg5 arg6 harg6 arg7 harg7 hc0 hc1 x0 x1 x2 xs)]
  unfold kernelRun1_B
  dsimp only
  sl_unfold_words
  rw [View.canon_unit_zero hz]
  simp only [View.readAt_eq_ld, harg3.read_unread, harg4.read_unread, harg5.read_unread, harg7.read_unread, View.ld_unit_zero (S := S2048x256) hz, View.ld_unit_zero (S := S1024x256) hz, View.ld_unit_zero (S := S1x1024) hz, View.ld_unit_zero (S := S2048x1024) hz]

/-- The last point of a run leaves the same in the accumulator, -/
theorem sout_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) :
    sout1_C c i arg3 harg3 arg4 harg4 arg5 harg5 arg6 harg6 arg7 harg7 hc0 hc1 x0 x1 x2 xs = k1_pay2 x0 x1 xs := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  sl_unfold_words
  rw [View.canon_unit_zero hz]
  simp only [View.readAt_eq_ld, harg3.read_unread, harg4.read_unread, harg5.read_unread, harg7.read_unread, View.ld_unit_zero (S := S2048x256) hz, View.ld_unit_zero (S := S1024x256) hz, View.ld_unit_zero (S := S1x1024) hz, View.ld_unit_zero (S := S2048x1024) hz]

/-- and stores accumulator × scale into the output buffer. -/
theorem out_C (c : Dev nD) (i : grid1.Coords) (arg3 : Memref sig .tc .vmem S2048x256 .bf16) (harg3 : arg3.IsWhole) (arg4 : Memref sig .tc .vmem S1024x256 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x256 .bf16) (x1 : Vec F S1024x256 .bf16) (x2 : Vec F S1x1024 .f32) (xs : Vec F S2048x1024 .f32) :
    out1_C_3 c i arg3 harg3 arg4 harg4 arg5 harg5 arg6 harg6 arg7 harg7 hc0 hc1 x0 x1 x2 xs = k1_pay3 (k1_pay2 x0 x1 xs) x2 := by
  unfold out1_C_3
  rw [View.read_writes_eq_canon _ _ _ (cover1_C_3 c i arg3 harg3 arg4 harg4 arg5 harg5 arg6 harg6 arg7 harg7 hc0 hc1 x0 x1 x2 xs)]
  unfold kernelRun1_C
  dsimp only
  sl_unfold_words
  rw [View.canon_unit_zero hz]
  simp only [View.readAt_eq_ld, harg3.read_unread, harg4.read_unread, harg5.read_unread, harg7.read_unread, View.ld_unit_zero (S := S2048x256) hz, View.ld_unit_zero (S := S1024x256) hz, View.ld_unit_zero (S := S1x1024) hz, View.ld_unit_zero (S := S2048x1024) hz, View.readCov_unit_zero (S := S2048x1024) _ hz]

end Pieces

variable (V : (c : Dev nD) → (b : Ref sig .tc) → Buf (Elt Ideal) ((c : Thread nD τ).loc b))

/-! ## Within a run of 43 points the row and column blocks do not move -/

theorem row1_pred (n : ℕ) (hn : n < cfg1.N) (hn' : n - 1 < cfg1.N) (h0 : ¬n % 43 = 0) (p : Fin 2048) :
    row1 ⟨n - 1, hn'⟩ p = row1 ⟨n, hn⟩ p :=
  Fin.ext (by show 2048 * ((n - 1) / 172) + p.val = 2048 * (n / 172) + p.val; omega)

theorem col1_pred (n : ℕ) (hn : n < cfg1.N) (hn' : n - 1 < cfg1.N) (h0 : ¬n % 43 = 0) (q : Fin 1024) :
    col1 ⟨n - 1, hn'⟩ q = col1 ⟨n, hn⟩ q :=
  Fin.ext (by show 1024 * (((n - 1) / 43) % 4) + q.val = 1024 * ((n / 43) % 4) + q.val; omega)

/-! ## The accumulator after each point -/

/-- The hidden activation as the region finds it. -/
abbrev harr (c : Dev nD) : SH2.Idx → EReal := V c main_v8
/-- The down weights as the region finds them. -/
abbrev warr (c : Dev nD) : SWD.Idx → EReal := V c main_v4
/-- The output scale row as the region finds it. -/
abbrev sarr (c : Dev nD) : SA2H.Idx → EReal := V c main_v7
/-- The products contracted at row r and output channel h, channel by channel: hidden activation times down weight. -/
abbrev prods (c : Dev nD) (r : Fin 8192) (h : Fin 4096) : Fin 11008 → EReal :=
  fun ii => harr V c (ix2 r ii) * warr V c (ix2 h ii)

/-- The accumulation depends only on the summands and the number of blocks. -/
theorem blockFold_congr {f g : Fin 11008 → EReal} (hfg : f = g) {n m : ℕ} (hnm : n = m) (hn : n ≤ 43) (hm : m ≤ 43) :
    blockFold f n hn = blockFold g m hm := by
  subst hfg; subst hnm; rfl

/-- One accumulation step at (p, q) of point t's block: over the sum of the first t % 43 blocks of products, the body
    leaves the sum of the first t % 43 + 1. -/
theorem pay2_at (c : Dev nD) (t : Fin cfg1.N) (p : Fin 2048) (q : Fin 1024) (xs : Vec Ideal S2048x1024 .f32)
    (hk : t.val % 43 + 1 ≤ 43)
    (hxs : xs (ix2 p q) = blockFold (prods V c (row1 t p) (col1 t q)) (t.val % 43) (Nat.le_of_succ_le hk)) :
    k1_pay2 (F := Ideal) (iblk1 V c 0 t) (iblk1 V c 1 t) xs (ix2 p q)
      = blockFold (prods V c (row1 t p) (col1 t q)) (t.val % 43 + 1) hk := by
  refine (k1_pay2_apply (iblk1 V c 0 t) (iblk1 V c 1 t) xs p q).trans ?_
  simp only [h_blk V c t p, wd_blk V c t q]
  rw [hxs]
  rfl

/-- What the point before left, restated at this point's row and column blocks. -/
theorem pred_conv (c : Dev nD) (n : ℕ) (hn : n < cfg1.N) (hn' : n - 1 < cfg1.N) (h0 : ¬n % 43 = 0) (p : Fin 2048) (q : Fin 1024)
    (a : EReal) (h1 : (n - 1) % 43 + 1 ≤ 43) (h2 : n % 43 ≤ 43)
    (ha : a = blockFold (prods V c (row1 ⟨n - 1, hn'⟩ p) (col1 ⟨n - 1, hn'⟩ q)) ((n - 1) % 43 + 1) h1) :
    a = blockFold (prods V c (row1 ⟨n, hn⟩ p) (col1 ⟨n, hn⟩ q)) (n % 43) h2 :=
  ha.trans (blockFold_congr (by rw [row1_pred n hn hn' h0 p, col1_pred n hn hn' h0 q]) (by omega) h1 h2)

/-- THE ACCUMULATOR after point n, at (p, q), is the sum of the first n % 43 + 1 blocks of products at this point's row and
    output channel, accumulated from zero: by induction on the point. -/
theorem acc_eq (c : Dev nD) : ∀ (n : ℕ) (hn : n < cfg1.N) (p : Fin 2048) (q : Fin 1024),
    (outsAt1 V c n hn).2 (ix2 p q)
      = blockFold (prods V c (row1 ⟨n, hn⟩ p) (col1 ⟨n, hn⟩ q)) (n % 43 + 1) (by omega) := by
  intro n
  induction n using Nat.strong_induction_on with
  | _ n ih =>
    intro hn p q
    by_cases h0 : n % 43 = 0
    · have h1 : ¬n % 43 = 42 := by omega
      rw [outsAt1_A V c ⟨n, hn⟩ h0 h1]
      dsimp only
      refine (congrFun (sout_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)) (ix2 p q)).trans ?_
      exact pay2_at V c ⟨n, hn⟩ p q (k1_pay1 (F := Ideal)) (by omega)
        ((k1_pay1_apply (ix2 p q)).trans (blockFold_congr rfl h0 (by omega) (Nat.zero_le 43)).symm)
    · have hn' : n - 1 < cfg1.N := by omega
      have hp := ih (n - 1) (by omega) hn' p q
      by_cases h1 : n % 43 = 42
      · rw [outsAt1_C V c ⟨n, hn⟩ h0 h1]
        dsimp only
        refine (congrFun (sout_C (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hn').2) (ix2 p q)).trans ?_
        exact pay2_at V c ⟨n, hn⟩ p q (outsAt1 V c (n - 1) hn').2 (by omega)
          (pred_conv V c n hn hn' h0 p q _ (by omega) (by omega) hp)
      · rw [outsAt1_B V c ⟨n, hn⟩ h0 h1]
        dsimp only
        refine (congrFun (sout_B (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) hn').2) (ix2 p q)).trans ?_
        exact pay2_at V c ⟨n, hn⟩ p q (outsAt1 V c (n - 1) hn').2 (by omega)
          (pred_conv V c n hn hn' h0 p q _ (by omega) (by omega) hp)

/-! ## What a flushing point writes back -/

/-- The result the specification names, of the three arrays as the region finds them. -/
abbrev Out (c : Dev nD) : SX2.Idx → EReal := OUT2 (V c main_v8) (V c main_v4) (V c main_v7)

/-- WHAT THE LAST POINT OF A RUN WRITES BACK is its block of the specification's result. -/
theorem flushed_eq1 (c : Dev nD) (t : Fin cfg1.N) (hf : (cfg1.win 3).flush t = true) :
    (dat1 (F := Ideal) V c).flushed 3 t = ((cfg1.win 3).blk t).view.read (Elt Ideal) (Out V c) := by
  have h1 : t.val % 43 = 42 := (flush1_3 t).mp hf
  have h0 : ¬t.val % 43 = 0 := by omega
  have ht : t.val < cfg1.N := t.isLt
  have hn' : t.val - 1 < cfg1.N := by omega
  show (cfg1.win 3).cut (grid1.coords t) ((dat1 (F := Ideal) V c).after 3 t) = _
  rw [after1_3, outsAt1_C V c t h0 h1]
  dsimp only
  funext j
  obtain ⟨p, q, rfl⟩ : ∃ (p : Fin 2048) (q : Fin 1024), j = ix2 p q := ⟨j 0, j 1, eq_ix2 j⟩
  refine (congrFun (out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) hn').2) (ix2 p q)).trans ?_
  refine (k1_pay3_apply _ (iblk1 V c 2 t) p q).trans ?_
  have hp := acc_eq V c (t.val - 1) hn' p q
  rw [pay2_at V c t p q (outsAt1 V c (t.val - 1) hn').2 (by omega)
      (pred_conv V c t.val t.isLt hn' h0 p q _ (by omega) (by omega) hp), ad_blk V c t q]
  show _ = Out V c (((cfg1.win 3).blk t).view.emb (ix2 p q))
  rw [out_blk_emb t p q]
  exact congrArg (· * sarr V c (ix2 0 (col1 t q)))
    (blockFold_congr rfl (by omega) _ (le_refl 43))

/-! ## The result array after the region -/

/-- THE RESULT ARRAY after the region is the specification's flattened result of the hidden activation, the down weights
    and the output scale as the region finds them. -/
theorem final1_3 (c : Dev nD) :
    (dat1 (F := Ideal) V c).arrAt 3 cfg1.N = Cert.Spec.OUT2 (V c main_v8) (V c main_v4) (V c main_v7) :=
  (dat1 (F := Ideal) V c).arrAt_eq_of_cover 3 (Out V c) (fun t hf => flushed_eq1 V c t hf) cover1

end Cert.KernelIdeal.Acc1Value

end
-- ==== Proof.Val.Host.lean ====
/-
  What the host operations around the two kernel regions leave in their result buffers, read at coordinates, at the
  ideal instance: a reshape reads the operand at the same row-major position and a change of float format is the
  identity, so the flattened activations at row 2048·b + s are the activations at (b, s), the converted weights are the
  weights, a scale as a 1 × n row is the scale, and the result reshaped back reads row 2048·b + s at (b, s).
-/
import proofs.«164616_j63883343560961_1_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HostValue

open Idealize.ShloMosaic Idealize.ShloMosaic.TcCoe Idealize.ShloMosaic.ValueIdx Idealize.ShloMosaic.StableHlo
open Cert.KernelIdeal Cert.KernelIdeal.Gen

/-! ## Reshapes at coordinates -/

/-- [4, 2048, 4096] flattened to [8192, 4096]: row 2048·b + s is (b, s). -/
theorem flatten_apply {α : Type} (x : S4x2048x4096.Idx → α) (h : S4x2048x4096.ShapeCasts S8192x4096)
    (b : Fin 4) (s : Fin 2048) (k : Fin 4096) :
    shapeCast S8192x4096 x h (ix2 ⟨2048 * b.val + s.val, by have := b.isLt; have := s.isLt; omega⟩ k) = x (ix3 b s k) :=
  shapeCast_apply x h _ _ (by
    rw [Shape.rowMajor_val_three, Shape.rowMajor_val_two]
    show (b.val * 2048 + s.val) * 4096 + k.val = (2048 * b.val + s.val) * 4096 + k.val
    omega)

/-- [8192, 4096] unflattened to [4, 2048, 4096]: (b, s) is row 2048·b + s. -/
theorem unflatten_apply {α : Type} (x : S8192x4096.Idx → α) (h : S8192x4096.ShapeCasts S4x2048x4096)
    (b : Fin 4) (s : Fin 2048) (k : Fin 4096) :
    shapeCast S4x2048x4096 x h (ix3 b s k) = x (ix2 ⟨2048 * b.val + s.val, by have := b.isLt; have := s.isLt; omega⟩ k) :=
  shapeCast_apply x h _ _ (by
    rw [Shape.rowMajor_val_three, Shape.rowMajor_val_two]
    show (2048 * b.val + s.val) * 4096 + k.val = (b.val * 2048 + s.val) * 4096 + k.val
    omega)

/-- [n] as a row [1, n]: (0, i) is i. -/
theorem row_apply {α : Type} {n : Nat} (x : (⟨1, ![n]⟩ : Shape).Idx → α) (h : (⟨1, ![n]⟩ : Shape).ShapeCasts ⟨2, ![1, n]⟩)
    (i : Fin n) : shapeCast ⟨2, ![1, n]⟩ x h (ix2 0 i) = x (ix1 i) :=
  shapeCast_apply x h _ _ (by
    rw [Shape.rowMajor_val_one, Shape.rowMajor_val_two]
    show i.val = 0 * n + i.val
    omega)

/-! ## The host operations before the first region -/

variable (W : Valuation τ sig (Elt Ideal))

/-- The flattened, converted activations at row 2048·b + s are the activations at (b, s). -/
theorem host_v1 (b : Fin 4) (s : Fin 2048) (k : Fin 4096) :
    StableHlo.after (hostOps0 (F := Ideal)) W (Proc.devRef .tc main_v1)
        (ix2 ⟨2048 * b.val + s.val, by have := b.isLt; have := s.isLt; omega⟩ k)
      = W (Proc.devRef .tc main_arg0) (ix3 b s k) := by
  have e : (StableHlo.after (hostOps0 (F := Ideal)) W (Proc.devRef .tc main_v1) : S8192x4096.Idx → EReal)
      = truncf (F := Ideal) .bf16 (shapeCast S8192x4096 (W (Proc.devRef .tc main_arg0)) shapeCasts_S4x2048x4096_S8192x4096)
          bitsLt_bf16_f32 := by
    dsimp only [hostOps0]; after_results; rfl
  rw [e, truncf_apply]
  exact flatten_apply _ _ b s k

/-- The converted gate weights are the gate weights. -/
theorem host_v2 : StableHlo.after (hostOps0 (F := Ideal)) W (Proc.devRef .tc main_v2) = W (Proc.devRef .tc main_arg1) := by
  dsimp only [hostOps0]; after_results; rfl

/-- The converted up weights are the up weights. -/
theorem host_v3 : StableHlo.after (hostOps0 (F := Ideal)) W (Proc.devRef .tc main_v3) = W (Proc.devRef .tc main_arg2) := by
  dsimp only [hostOps0]; after_results; rfl

/-- The converted down weights are the down weights. -/
theorem host_v4 : StableHlo.after (hostOps0 (F := Ideal)) W (Proc.devRef .tc main_v4) = W (Proc.devRef .tc main_arg3) := by
  dsimp only [hostOps0]; after_results; rfl

/-- The gate scale as a row. -/
theorem host_v5 (i : Fin 11008) :
    StableHlo.after (hostOps0 (F := Ideal)) W (Proc.devRef .tc main_v5) (ix2 0 i) = W (Proc.devRef .tc main_arg4) (ix1 i) := by
  have e : (StableHlo.after (hostOps0 (F := Ideal)) W (Proc.devRef .tc main_v5) : S1x11008.Idx → EReal)
      = shapeCast S1x11008 (W (Proc.devRef .tc main_arg4)) shapeCasts_S11008_S1x11008 := by
    dsimp only [hostOps0]; after_results; rfl
  rw [e]
  exact row_apply _ _ i

/-- The up scale as a row. -/
theorem host_v6 (i : Fin 11008) :
    StableHlo.after (hostOps0 (F := Ideal)) W (Proc.devRef .tc main_v6) (ix2 0 i) = W (Proc.devRef .tc main_arg5) (ix1 i) := by
  have e : (StableHlo.after (hostOps0 (F := Ideal)) W (Proc.devRef .tc main_v6) : S1x11008.Idx → EReal)
      = shapeCast S1x11008 (W (Proc.devRef .tc main_arg5)) shapeCasts_S11008_S1x11008 := by
    dsimp only [hostOps0]; after_results; rfl
  rw [e]
  exact row_apply _ _ i

/-- The down scale as a row. -/
theorem host_v7 (h : Fin 4096) :
    StableHlo.after (hostOps0 (F := Ideal)) W (Proc.devRef .tc main_v7) (ix2 0 h) = W (Proc.devRef .tc main_arg6) (ix1 h) := by
  have e : (StableHlo.after (hostOps0 (F := Ideal)) W (Proc.devRef .tc main_v7) : S1x4096.Idx → EReal)
      = shapeCast S1x4096 (W (Proc.devRef .tc main_arg6)) shapeCasts_S4096_S1x4096 := by
    dsimp only [hostOps0]; after_results; rfl
  rw [e]
  exact row_apply _ _ h

/-! ## The host operation after the last region -/

/-- The result reshaped back reads row 2048·b + s at (b, s). -/
theorem tail_v10 (b : Fin 4) (s : Fin 2048) (h : Fin 4096) :
    StableHlo.after (hostOps2 (F := Ideal)) W (Proc.devRef .tc main_v10) (ix3 b s h)
      = W (Proc.devRef .tc main_v9) (ix2 ⟨2048 * b.val + s.val, by have := b.isLt; have := s.isLt; omega⟩ h) := by
  have e : (StableHlo.after (hostOps2 (F := Ideal)) W (Proc.devRef .tc main_v10) : S4x2048x4096.Idx → EReal)
      = shapeCast S4x2048x4096 (W (Proc.devRef .tc main_v9)) shapeCasts_S8192x4096_S4x2048x4096 := by
    dsimp only [hostOps2]; after_results; rfl
  rw [e]
  exact unflatten_apply _ _ b s h

end Cert.KernelIdeal.HostValue

end
-- ==== Proof.Val.Ref.lean ====
/-
  The reference program computes the specification's array G, index by index on the extended reals, and the
  accumulation over 43 blocks of 256 channels is the sum over all 11008 channels.
-/
import proofs.«164616_j63883343560961_1_alg».proof.Proof.Gen.ReferenceIdeal.Read
import proofs.«164616_j63883343560961_1_alg».proof.Proof.Val.Spec
import Idealize.ShloMosaic.Lib.ValueIdx
import Idealize.ShloMosaic.Lib.IdealHost
import Idealize.ShloMosaic.PureOps.Ideal.Laws
import Mathlib.Algebra.BigOperators.Fin

noncomputable section

open scoped BigOperators

namespace Cert.RefValue

open Idealize.ShloMosaic Idealize.ShloMosaic.ValueIdx Cert.ReferenceIdeal Cert.ReferenceIdeal.Read

/-! ## The composed index maps of the reference, at coordinates -/

/-- A per-channel scale broadcast to [4, 2048, 11008] reads channel i at (b, s, i). -/
theorem idx_scale_g (b : Fin 4) (s : Fin 2048) (i : Fin 11008) :
    idx_main_v1 (idx_main_v2 (ix3 b s i)) = ix1 i := funext fun a => Fin.ext (by match a with | ⟨0, _⟩ => rfl)
theorem idx_scale_u (b : Fin 4) (s : Fin 2048) (i : Fin 11008) :
    idx_main_v5 (idx_main_v6 (ix3 b s i)) = ix1 i := funext fun a => Fin.ext (by match a with | ⟨0, _⟩ => rfl)
theorem idx_scale_d (b : Fin 4) (s : Fin 2048) (h : Fin 4096) :
    idx_main_v11 (idx_main_v12 (ix3 b s h)) = ix1 h := funext fun a => Fin.ext (by match a with | ⟨0, _⟩ => rfl)
/-- The contraction of the gate projection reads x at (b, s, k) and the weight at (i, k). -/
theorem lidx_g (b : Fin 4) (s : Fin 2048) (i : Fin 11008) (k : Fin 4096) :
    lidx_main_v0 (ix3 b s i) k = ix3 b s k :=
  funext fun a => Fin.ext (by match a with | ⟨0, _⟩ => rfl | ⟨1, _⟩ => rfl | ⟨2, _⟩ => rfl)
theorem ridx_g (b : Fin 4) (s : Fin 2048) (i : Fin 11008) (k : Fin 4096) :
    ridx_main_v0 (ix3 b s i) k = ix2 i k :=
  funext fun a => Fin.ext (by match a with | ⟨0, _⟩ => rfl | ⟨1, _⟩ => rfl)
theorem lidx_u (b : Fin 4) (s : Fin 2048) (i : Fin 11008) (k : Fin 4096) :
    lidx_main_v4 (ix3 b s i) k = ix3 b s k :=
  funext fun a => Fin.ext (by match a with | ⟨0, _⟩ => rfl | ⟨1, _⟩ => rfl | ⟨2, _⟩ => rfl)
theorem ridx_u (b : Fin 4) (s : Fin 2048) (i : Fin 11008) (k : Fin 4096) :
    ridx_main_v4 (ix3 b s i) k = ix2 i k :=
  funext fun a => Fin.ext (by match a with | ⟨0, _⟩ => rfl | ⟨1, _⟩ => rfl)
/-- The down projection's contraction reads the hidden activation at (b, s, i) and the weight at (h, i). -/
theorem lidx_d (b : Fin 4) (s : Fin 2048) (h : Fin 4096) (i : Fin 11008) :
    lidx_main_v10 (ix3 b s h) i = ix3 b s i :=
  funext fun a => Fin.ext (by match a with | ⟨0, _⟩ => rfl | ⟨1, _⟩ => rfl | ⟨2, _⟩ => rfl)
theorem ridx_d (b : Fin 4) (s : Fin 2048) (h : Fin 4096) (i : Fin 11008) :
    ridx_main_v10 (ix3 b s h) i = ix2 h i :=
  funext fun a => Fin.ext (by match a with | ⟨0, _⟩ => rfl | ⟨1, _⟩ => rfl)

/-! ## The stages at coordinates -/

/-- The scaled gate projection at (b, s, i). -/
theorem gate_at (x0 : (⟨S4x2048x4096, .f32⟩ : BufTy).Contents (Elt Ideal))
    (x1 : (⟨S11008x4096, .f32⟩ : BufTy).Contents (Elt Ideal)) (x4 : (⟨S11008, .f32⟩ : BufTy).Contents (Elt Ideal))
    (b : Fin 4) (s : Fin 2048) (i : Fin 11008) :
    val_main_v3 (F := Ideal) x0 x1 x4 (ix3 b s i) = Cert.Spec.proj x0 x1 x4 b s i := by
  rw [val_main_v3_apply, val_main_v0_apply, val_main_v2_apply, val_main_v1_apply, idx_scale_g]
  simp only [lidx_g, ridx_g, Ideal.mulf_def]
  rfl

/-- The scaled up projection at (b, s, i). -/
theorem up_at (x0 : (⟨S4x2048x4096, .f32⟩ : BufTy).Contents (Elt Ideal))
    (x2 : (⟨S11008x4096, .f32⟩ : BufTy).Contents (Elt Ideal)) (x5 : (⟨S11008, .f32⟩ : BufTy).Contents (Elt Ideal))
    (b : Fin 4) (s : Fin 2048) (i : Fin 11008) :
    val_main_v7 (F := Ideal) x0 x2 x5 (ix3 b s i) = Cert.Spec.proj x0 x2 x5 b s i := by
  rw [val_main_v7_apply, val_main_v4_apply, val_main_v6_apply, val_main_v5_apply, idx_scale_u]
  simp only [lidx_u, ridx_u, Ideal.mulf_def]
  rfl

/-- The hidden activation at (b, s, i): silu of the gate times the up projection. -/
theorem hid_at (x0 : (⟨S4x2048x4096, .f32⟩ : BufTy).Contents (Elt Ideal))
    (x1 x2 : (⟨S11008x4096, .f32⟩ : BufTy).Contents (Elt Ideal)) (x4 x5 : (⟨S11008, .f32⟩ : BufTy).Contents (Elt Ideal))
    (b : Fin 4) (s : Fin 2048) (i : Fin 11008) :
    val_main_v9 (F := Ideal) x0 x1 x2 x4 x5 (ix3 b s i) = Cert.Spec.hid x0 x1 x2 x4 x5 b s i := by
  rw [val_main_v9_apply, val_main_v8_apply, val_main_call0_v5_apply, val_main_call0_v4_apply,
    val_main_call0_cst_0_apply, val_main_call0_v3_apply, val_main_call0_v2_apply, val_main_call0_cst_apply,
    val_main_call0_v1_apply, val_main_call0_v0_apply, up_at, gate_at]
  simp only [Ideal.mulf_def, Ideal.addf_def, Ideal.hostDivf_def, Ideal.hostUnary_exp_def, Ideal.hostNegf_def,
    Ideal.negf_def, Ideal.ofBits_def, Ideal.ofBits_one_f32]
  rfl

/-- The reference's result is the specification's array. -/
theorem ref_eq_G (x0 : (⟨Cert.ReferenceIdeal.S4x2048x4096, .f32⟩ : BufTy).Contents (Elt Ideal))
    (x1 x2 : (⟨Cert.ReferenceIdeal.S11008x4096, .f32⟩ : BufTy).Contents (Elt Ideal))
    (x3 : (⟨Cert.ReferenceIdeal.S4096x11008, .f32⟩ : BufTy).Contents (Elt Ideal))
    (x4 x5 : (⟨Cert.ReferenceIdeal.S11008, .f32⟩ : BufTy).Contents (Elt Ideal))
    (x6 : (⟨Cert.ReferenceIdeal.S4096, .f32⟩ : BufTy).Contents (Elt Ideal)) :
    Cert.ReferenceIdeal.Read.val_main_v13 (F := Ideal) x0 x1 x2 x3 x4 x5 x6 = Cert.Spec.G x0 x1 x2 x3 x4 x5 x6 := by
  funext j
  obtain ⟨b, s, h, rfl⟩ : ∃ (b : Fin 4) (s : Fin 2048) (h : Fin 4096), j = ix3 b s h := ⟨j 0, j 1, j 2, eq_ix3 j⟩
  rw [Cert.Spec.G_ix3, val_main_v13_apply, val_main_v10_apply, val_main_v12_apply, val_main_v11_apply, idx_scale_d]
  simp only [lidx_d, ridx_d, hid_at, Ideal.mulf_def]
  rfl

/-! ## The accumulation over blocks is the whole sum -/

/-- After n blocks the accumulator holds the sum of the first 256·n channels. -/
theorem blockFold_eq_range (f : Fin 11008 → EReal) : ∀ (n : ℕ) (hn : n ≤ 43),
    Cert.Spec.blockFold f n hn = ∑ m ∈ Finset.range (256 * n), (if h : m < 11008 then f ⟨m, h⟩ else 0)
  | 0, _ => by simp [Cert.Spec.blockFold]
  | n + 1, hn => by
    rw [Cert.Spec.blockFold, blockFold_eq_range f n (Nat.le_of_succ_le hn), Nat.mul_succ, Finset.sum_range_add]
    congr 1
    rw [← Fin.sum_univ_eq_sum_range (fun m => if h : 256 * n + m < 11008 then f ⟨256 * n + m, h⟩ else 0) 256]
    refine Finset.sum_congr rfl fun j _ => ?_
    rw [dif_pos]

/-- The accumulation over all 43 blocks is the sum over the 11008 channels. -/
theorem blockFold_eq_sum (f : Fin 11008 → EReal) : Cert.Spec.blockFold f 43 (le_refl 43) = ∑ i : Fin 11008, f i := by
  rw [blockFold_eq_range, show 256 * 43 = 11008 from rfl,
    ← Fin.sum_univ_eq_sum_range (fun m => if h : m < 11008 then f ⟨m, h⟩ else 0) 11008]
  refine Finset.sum_congr rfl fun i _ => ?_
  rw [dif_pos i.isLt]

end Cert.RefValue

end
-- ==== Proof.Val.Bridge.lean ====
/-
  The specification over coordinates (b, s, h) is the flattened-row specification at row r = 2048·b + s, when the
  flattened activations and the row-shaped scales carry the same numbers as the originals.
-/
import proofs.«164616_j63883343560961_1_alg».proof.Proof.Val.Spec
import proofs.«164616_j63883343560961_1_alg».proof.Proof.Val.Ref

noncomputable section

open scoped BigOperators

namespace Cert.Bridge

open Idealize.ShloMosaic Idealize.ShloMosaic.ValueIdx Cert.Spec

/-- The scaled projection at row 2048·b + s of the flattened activations is the one at (b, s). -/
theorem proj2_eq_proj (x : SX.Idx → EReal) (W : SWI.Idx → EReal) (a : SAI.Idx → EReal)
    (x2 : SX2.Idx → EReal) (a2 : SA2I.Idx → EReal)
    (hx : ∀ (b : Fin 4) (s : Fin 2048) (k : Fin 4096),
      x2 (ix2 ⟨2048 * b.val + s.val, by have := b.isLt; have := s.isLt; omega⟩ k) = x (ix3 b s k))
    (ha : ∀ i : Fin 11008, a2 (ix2 0 i) = a (ix1 i))
    (b : Fin 4) (s : Fin 2048) (i : Fin 11008) :
    proj2 x2 W a2 ⟨2048 * b.val + s.val, by have := b.isLt; have := s.isLt; omega⟩ i = proj x W a b s i := by
  unfold proj2 proj
  rw [ha i]
  congr 1
  exact Finset.sum_congr rfl fun k _ => by rw [hx b s k]

/-- The hidden activation at row 2048·b + s is the one at (b, s). -/
theorem hid2_eq_hid (x : SX.Idx → EReal) (Wg Wu : SWI.Idx → EReal) (ag au : SAI.Idx → EReal)
    (x2 : SX2.Idx → EReal) (ag2 au2 : SA2I.Idx → EReal)
    (hx : ∀ (b : Fin 4) (s : Fin 2048) (k : Fin 4096),
      x2 (ix2 ⟨2048 * b.val + s.val, by have := b.isLt; have := s.isLt; omega⟩ k) = x (ix3 b s k))
    (hag : ∀ i : Fin 11008, ag2 (ix2 0 i) = ag (ix1 i)) (hau : ∀ i : Fin 11008, au2 (ix2 0 i) = au (ix1 i))
    (b : Fin 4) (s : Fin 2048) (i : Fin 11008) :
    hid2 x2 Wg Wu ag2 au2 ⟨2048 * b.val + s.val, by have := b.isLt; have := s.isLt; omega⟩ i = hid x Wg Wu ag au b s i := by
  unfold hid2 hid
  rw [proj2_eq_proj x Wg ag x2 ag2 hx hag b s i, proj2_eq_proj x Wu au x2 au2 hx hau b s i]

/-- The flattened result at (2048·b + s, h), the channels accumulated block by block, is the specification at (b, s, h). -/
theorem G_eq_OUT2 (x : SX.Idx → EReal) (Wg Wu : SWI.Idx → EReal) (Wd : SWD.Idx → EReal) (ag au : SAI.Idx → EReal) (ad : SAH.Idx → EReal)
    (x2 : SX2.Idx → EReal) (ag2 au2 : SA2I.Idx → EReal) (ad2 : SA2H.Idx → EReal)
    (hx : ∀ (b : Fin 4) (s : Fin 2048) (k : Fin 4096),
      x2 (ix2 ⟨2048 * b.val + s.val, by have := b.isLt; have := s.isLt; omega⟩ k) = x (ix3 b s k))
    (hag : ∀ i : Fin 11008, ag2 (ix2 0 i) = ag (ix1 i)) (hau : ∀ i : Fin 11008, au2 (ix2 0 i) = au (ix1 i))
    (had : ∀ h : Fin 4096, ad2 (ix2 0 h) = ad (ix1 h))
    (b : Fin 4) (s : Fin 2048) (h : Fin 4096) :
    OUT2 (H2 x2 Wg Wu ag2 au2) Wd ad2 (ix2 ⟨2048 * b.val + s.val, by have := b.isLt; have := s.isLt; omega⟩ h)
      = G x Wg Wu Wd ag au ad (ix3 b s h) := by
  rw [G_ix3]
  show out2at (H2 x2 Wg Wu ag2 au2) Wd ad2 ⟨2048 * b.val + s.val, _⟩ h = _
  unfold out2at Gat
  rw [Cert.RefValue.blockFold_eq_sum, had h]
  congr 1
  refine Finset.sum_congr rfl fun i _ => ?_
  show hid2 x2 Wg Wu ag2 au2 ⟨2048 * b.val + s.val, _⟩ i * Wd (ix2 h i) = _
  rw [hid2_eq_hid x Wg Wu ag au x2 ag2 au2 hx hag hau b s i]

end Cert.Bridge

end
-- ==== Proof.Val.Kernel.lean ====
/-
  The kernel program's result, at the ideal instance, as a function of the launch contents.

  The run leaves every unscoped buffer at the last boundary's contents.  Read at the result buffer: the last host operation
  reshapes the flattened result, row r = 2048·b + s; the flattened result is what the down-projection region's write-backs
  fold to, the blocked contraction of the hidden array with the down weights, scaled; the hidden array is what the first
  region's write-backs fold to, SwiGLU of the two scaled projections of the flattened activations; and the host
  operations before the regions only flatten the activations, pass the weights through a change of float format (the
  identity on the extended reals) and turn the scales into rows.  Composed, the result buffer holds the specification
  `G` of the seven argument arrays.
-/
import proofs.«164616_j63883343560961_1_alg».proof.Proof.KI.Run
import proofs.«164616_j63883343560961_1_alg».proof.Proof.Val.Blk0
import proofs.«164616_j63883343560961_1_alg».proof.Proof.Val.Acc1
import proofs.«164616_j63883343560961_1_alg».proof.Proof.Val.Host
import proofs.«164616_j63883343560961_1_alg».proof.Proof.Val.Bridge

noncomputable section

namespace Cert.KernelIdeal.KernelValue

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ) (ρ : Dev nD → PrngReg)

/-- The hidden array as the second region finds it: SwiGLU over the flattened activations as the first region found them. -/
theorem hidden_eq (c : Dev nD) :
    VA2 m ρ c main_v8 = Cert.Spec.H2 (VA1 m ρ c main_v1) (VA1 m ρ c main_v2) (VA1 m ρ c main_v3) (VA1 m ρ c main_v5) (VA1 m ρ c main_v6) :=
  (WA2_arr m ρ c 5).trans (Cert.KernelIdeal.Blk0Value.final0_5 (VA1 m ρ) c)

/-- The down weights and the output scale row reach the second region as the host operations left them. -/
theorem weights_kept (c : Dev nD) : VA2 m ρ c main_v4 = VA1 m ρ c main_v4 := WA2_of_ne m ρ c main_v4 (by decide)
theorem scale_kept (c : Dev nD) : VA2 m ρ c main_v7 = VA1 m ρ c main_v7 := WA2_of_ne m ρ c main_v7 (by decide)

/-- The flattened result after the second region. -/
theorem flat_result_eq (c : Dev nD) :
    WA3 m ρ c (Proc.devRef .tc main_v9) = Cert.Spec.OUT2 (VA2 m ρ c main_v8) (VA2 m ρ c main_v4) (VA2 m ρ c main_v7) :=
  (WA3_arr m ρ c 3).trans (Cert.KernelIdeal.Acc1Value.final1_3 (VA2 m ρ) c)

/-- THE RESULT: the result buffer at the end holds `G` of the argument arrays as launched. -/
theorem result_eq (c : Dev nD) :
    WA4 m ρ c (Proc.devRef .tc main_v10)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext j
  obtain ⟨b, s, h, rfl⟩ : ∃ (b : Fin 4) (s : Fin 2048) (h : Fin 4096), j = ix3 b s h := ⟨j 0, j 1, j 2, eq_ix3 j⟩
  refine (Cert.KernelIdeal.HostValue.tail_v10 (WA3 m ρ c) b s h).trans ?_
  rw [flat_result_eq m ρ c, hidden_eq m ρ c, weights_kept m ρ c, scale_kept m ρ c]
  rw [show VA1 m ρ c main_v2 = m ((c : Thread nD τ).loc main_arg1) from Cert.KernelIdeal.HostValue.host_v2 (WA0 m ρ c),
    show VA1 m ρ c main_v3 = m ((c : Thread nD τ).loc main_arg2) from Cert.KernelIdeal.HostValue.host_v3 (WA0 m ρ c),
    show VA1 m ρ c main_v4 = m ((c : Thread nD τ).loc main_arg3) from Cert.KernelIdeal.HostValue.host_v4 (WA0 m ρ c)]
  exact Cert.Bridge.G_eq_OUT2 _ _ _ _ _ _ _ _ _ _ _
    (fun b s k => Cert.KernelIdeal.HostValue.host_v1 (WA0 m ρ c) b s k)
    (fun i => Cert.KernelIdeal.HostValue.host_v5 (WA0 m ρ c) i)
    (fun i => Cert.KernelIdeal.HostValue.host_v6 (WA0 m ρ c) i)
    (fun h => Cert.KernelIdeal.HostValue.host_v7 (WA0 m ρ c) h) b s h

end Cert.KernelIdeal.KernelValue

end
-- ==== Proof.lean ====
/-
  The certificate of the ternary SwiGLU MLP kernel against its jnp reference.

  Both programs compute, for activations x[b,s,·], ternary weight matrices Wg, Wu (one row per intermediate channel), Wd
  (one row per output channel) and per-channel scales ag, au, ad,
      out[b,s,h] = (Σ_i ((g_i · logistic g_i) · u_i) · Wd[h,i]) · ad[h],   g_i = (Σ_k x[b,s,k]·Wg[i,k])·ag[i],  u_i likewise with Wu, au.
  The reference does it with three einsums on the host.  The kernel flattens the activations to 8192 rows, computes the
  hidden activation in one Pallas kernel (one 1024 × 256 block per grid point, the 4096-long contraction whole), and the
  down projection in a second one that contracts the 11008 intermediate channels in 43 blocks of 256, accumulating in a
  scratch buffer and scaling at the last block.  On the extended reals the change of float format is the identity, the
  kernel's logistic is the reference's 1 / (1 + exp(−g)), and the blocked accumulation from zero is the whole sum
  (addition is associative and commutative there), so the two results are one function of the arguments, index by index;
  no finiteness of the inputs is needed.

  The frames: each kernel program (word level and idealized: one text up to the namespace) runs as four segments — host
  operations, the two kernel regions, a host operation — and no argument array is written by a host operation or
  covered by a window of either region; the reference is a straight line of host operations.
-/
import proofs.«164616_j63883343560961_1_alg».proof.Defs
import proofs.«164616_j63883343560961_1_alg».proof.Proof.Gen.Kernel
import proofs.«164616_j63883343560961_1_alg».proof.Proof.Gen.KernelIdeal
import proofs.«164616_j63883343560961_1_alg».proof.Proof.Gen.ReferenceIdeal
import proofs.«164616_j63883343560961_1_alg».proof.Proof.Gen.Pre_finite_inputs
import proofs.«164616_j63883343560961_1_alg».proof.Proof.Gen.ReferenceIdeal.Run
import proofs.«164616_j63883343560961_1_alg».proof.Proof.Gen.ReferenceIdeal.Read
import proofs.«164616_j63883343560961_1_alg».proof.Proof.K.Run
import proofs.«164616_j63883343560961_1_alg».proof.Proof.KI.Run
import proofs.«164616_j63883343560961_1_alg».proof.Proof.Val.Kernel
import proofs.«164616_j63883343560961_1_alg».proof.Proof.Val.Ref
import Idealize.ShloMosaic.Adequacy
import Idealize.ShloMosaic.Init

noncomputable section

namespace Cert.Proof

open Idealize.ShloMosaic Idealize.SL.Sem

/-- The word-level kernel program runs to its end and leaves its arguments as launched. -/
theorem frame_k : Cert.frame_Kernel := fun m ρ _ => Cert.Kernel.Frm.frame (F := Bits) m ρ

/-- So does the idealized one. -/
theorem frame_ki : Cert.frame_KernelIdeal := fun m ρ _ => Cert.KernelIdeal.Frm.frame (F := Ideal) m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- On the extended reals both programs end with the specification `G` of the arguments in their result buffers. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c =>
      ⟨(h c _ (Cert.KernelIdeal.Frm.mem_uc Cert.KernelIdeal.main_v10 (by decide))).trans (Cert.KernelIdeal.KernelValue.result_eq m ρ c),
        (h c _ (Cert.KernelIdeal.Frm.mem_uc Cert.KernelIdeal.main_arg0 (by decide))).trans (Cert.KernelIdeal.Frm.WA4_main_arg0 m ρ c),
        (h c _ (Cert.KernelIdeal.Frm.mem_uc Cert.KernelIdeal.main_arg1 (by decide))).trans (Cert.KernelIdeal.Frm.WA4_main_arg1 m ρ c),
        (h c _ (Cert.KernelIdeal.Frm.mem_uc Cert.KernelIdeal.main_arg2 (by decide))).trans (Cert.KernelIdeal.Frm.WA4_main_arg2 m ρ c),
        (h c _ (Cert.KernelIdeal.Frm.mem_uc Cert.KernelIdeal.main_arg3 (by decide))).trans (Cert.KernelIdeal.Frm.WA4_main_arg3 m ρ c),
        (h c _ (Cert.KernelIdeal.Frm.mem_uc Cert.KernelIdeal.main_arg4 (by decide))).trans (Cert.KernelIdeal.Frm.WA4_main_arg4 m ρ c),
        (h c _ (Cert.KernelIdeal.Frm.mem_uc Cert.KernelIdeal.main_arg5 (by decide))).trans (Cert.KernelIdeal.Frm.WA4_main_arg5 m ρ c),
        (h c _ (Cert.KernelIdeal.Frm.mem_uc Cert.KernelIdeal.main_arg6 (by decide))).trans (Cert.KernelIdeal.Frm.WA4_main_arg6 m ρ c)⟩)
      (Cert.KernelIdeal.Frm.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.RefValue.ref_eq_G, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
